-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S512x512 : Shape := ⟨2, ![512, 512]⟩
abbrev S512 : Shape := ⟨1, ![512]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x128x512 .f32) (main_arg1 : FVec F S512x512 .f32) (main_arg2 : FVec F S512 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x128x512 : Shape := ⟨3, ![8, 128, 512]⟩
abbrev S512x512 : Shape := ⟨2, ![512, 512]⟩
abbrev S512 : Shape := ⟨1, ![512]⟩
abbrev S1x128x512 : Shape := ⟨3, ![1, 128, 512]⟩
abbrev S128x512 : Shape := ⟨2, ![128, 512]⟩
abbrev S8x128x128x512 : Shape := ⟨4, ![8, 128, 128, 512]⟩
abbrev S1x32x512 : Shape := ⟨3, ![1, 32, 512]⟩
abbrev S1x128x32x512 : Shape := ⟨4, ![1, 128, 32, 512]⟩
abbrev S32x512 : Shape := ⟨2, ![32, 512]⟩
abbrev S128x1x512 : Shape := ⟨3, ![128, 1, 512]⟩
abbrev S128x32x512 : Shape := ⟨3, ![128, 32, 512]⟩
abbrev S1x1x512 : Shape := ⟨3, ![1, 1, 512]⟩

abbrev nBuf : Space → Nat
  | .hbm => 7
  | .vmem => 12
  | .smem => 0
  | _ => 0

abbrev bufTy : (tb : Table) → Fin (tcTables nBuf tb) → BufTy
  | .hbm, ⟨0, _⟩ => ⟨S8x128x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .bf16⟩
  | .hbm, ⟨5, _⟩ => ⟨S8x128x512, .f32⟩
  | .hbm, ⟨6, _⟩ => ⟨S8x128x128x512, .f32⟩
  | .local _ .vmem, ⟨0, _⟩ => ⟨S1x128x512, .f32⟩
  | .local _ .vmem, ⟨1, _⟩ => ⟨S1x128x512, .f32⟩
  | .local _ .vmem, ⟨2, _⟩ => ⟨S512x512, .bf16⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x32x512, .f32⟩
  | .local _ .vmem, ⟨8, _⟩ => ⟨S1x32x512, .f32⟩
  | .local _ .vmem, ⟨9, _⟩ => ⟨S512, .f32⟩
  | .local _ .vmem, ⟨10, _⟩ => ⟨S1x128x32x512, .f32⟩
  | .local _ .vmem, ⟨11, _⟩ => ⟨S1x128x32x512, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x32x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S512x512_S512x512_1_0 : S512x512.Transposes [1, 0] S512x512
  bitsLt_bf16_f32 : FTy.bits .bf16 < FTy.bits .f32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S128x512_S1x128x512 : S128x512.ShapeCasts S1x128x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S512_S512_0 : ∀ a, (![0] : Fin 1 → Nat) a + S512.size a ≤ S512.size a
  h_S512 : 0 < S512.numel
  shapeCasts_S128x512_S128x1x512 : S128x512.ShapeCasts S128x1x512
  shapeCasts_S32x512_S1x32x512 : S32x512.ShapeCasts S1x32x512
  broadcasts_S128x1x512_S128x32x512 : S128x1x512.Broadcasts S128x32x512
  broadcasts_S1x32x512_S128x32x512 : S1x32x512.Broadcasts S128x32x512
  shapeCasts_S512_S1x1x512 : S512.ShapeCasts S1x1x512
  broadcasts_S1x1x512_S128x32x512 : S1x1x512.Broadcasts S128x32x512
  inb_S1x128x32x512_S1x128x32x512_0_0_0_0 : ∀ a, (![0, 0, 0, 0] : Fin 4 → Nat) a + S1x128x32x512.size a ≤ S1x128x32x512.size a
  h_S1x128x32x512 : 0 < S1x128x32x512.numel
  shapeCasts_S1x128x32x512_S128x32x512 : S1x128x32x512.ShapeCasts S128x32x512
  shapeCasts_S128x32x512_S1x128x32x512 : S128x32x512.ShapeCasts S1x128x32x512
  dot_S128x512_S512x512_S128x512_1_0_0_1_n_n_wf : DotDims.WF S128x512 S512x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x128x512.size a
  hwx0_0 : ∀ i : grid0.Coords, EltTy.bits .f32 = 32 ∨ (Rect.block (s := S8x128x512) S1x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x128x512.size a
  hwx0_2 : ∀ i : grid0.Coords, EltTy.bits .f32 = 32 ∨ (Rect.block (s := S8x128x512) S1x128x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x512.size a ≤ S8x128x512.size a
  hwx1_0 : ∀ i : grid1.Coords, EltTy.bits .f32 = 32 ∨ (Rect.block (s := S8x128x512) S1x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x512.size a ≤ S8x128x512.size a
  hwx1_1 : ∀ i : grid1.Coords, EltTy.bits .f32 = 32 ∨ (Rect.block (s := S8x128x512) S1x32x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x32x512.size a ≤ S8x128x128x512.size a
  hwx1_3 : ∀ i : grid1.Coords, EltTy.bits .f32 = 32 ∨ (Rect.block (s := S8x128x128x512) S1x128x32x512.size (cc1_transform_3 i) (hinb1_3 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x32x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128x32x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x128x512 : Shape := ⟨3, ![8, 128, 512]⟩
abbrev S512x512 : Shape := ⟨2, ![512, 512]⟩
abbrev S512 : Shape := ⟨1, ![512]⟩
abbrev S8x1x128x512 : Shape := ⟨4, ![8, 1, 128, 512]⟩
abbrev S8x128x1x512 : Shape := ⟨4, ![8, 128, 1, 512]⟩
abbrev S8x128x128x512 : Shape := ⟨4, ![8, 128, 128, 512]⟩
abbrev S1x1x1x512 : Shape := ⟨4, ![1, 1, 1, 512]⟩

abbrev nBuf : Space → Nat
  | .hbm => 12
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S512x512, .f32⟩
  | .hbm, ⟨2, _⟩ => ⟨S512, .f32⟩
  | .hbm, ⟨3, _⟩ => ⟨S8x1x128x512, .f32⟩
  | .hbm, ⟨4, _⟩ => ⟨S8x128x1x512, .f32⟩
  | .hbm, ⟨5, _⟩ => ⟨S8x128x128x512, .f32⟩
  | .hbm, ⟨6, _⟩ => ⟨S8x128x128x512, .f32⟩
  | .hbm, ⟨7, _⟩ => ⟨S8x128x128x512, .f32⟩
  | .hbm, ⟨8, _⟩ => ⟨S8x128x128x512, .f32⟩
  | .hbm, ⟨9, _⟩ => ⟨S1x1x1x512, .f32⟩
  | .hbm, ⟨10, _⟩ => ⟨S8x128x128x512, .f32⟩
  | .hbm, ⟨11, _⟩ => ⟨S8x128x128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S8x128x512_S8x1x128x512_0_2_3 : S8x128x512.BroadcastsInDim S8x1x128x512 (![0, 2, 3] : Fin 3 → Fin S8x1x128x512.rank)
  bcast_S8x128x512_S8x128x1x512_0_1_3 : S8x128x512.BroadcastsInDim S8x128x1x512 (![0, 1, 3] : Fin 3 → Fin S8x128x1x512.rank)
  bcast_S8x1x128x512_S8x128x128x512_0_1_2_3 : S8x1x128x512.BroadcastsInDim S8x128x128x512 (![0, 1, 2, 3] : Fin 4 → Fin S8x128x128x512.rank)
  bcast_S8x128x1x512_S8x128x128x512_0_1_2_3 : S8x128x1x512.BroadcastsInDim S8x128x128x512 (![0, 1, 2, 3] : Fin 4 → Fin S8x128x128x512.rank)
  bcast_S512_S1x1x1x512_3 : S512.BroadcastsInDim S1x1x1x512 (![3] : Fin 1 → Fin S1x1x1x512.rank)
  bcast_S1x1x1x512_S8x128x128x512_0_1_2_3 : S1x1x1x512.BroadcastsInDim S8x128x128x512 (![0, 1, 2, 3] : Fin 4 → Fin S8x128x128x512.rank)
  dot_S8x128x128x512_S512x512_S8x128x128x512_3_1_012_0_n_n_wf : DotDims.WF S8x128x128x512 S512x512 S8x128x128x512 [3] [1] [0, 1, 2] [0] [] []

variable [Facts₀]

def dot_S8x128x128x512_S512x512_S8x128x128x512_3_1_012_0_n_n : DotDims S8x128x128x512 S512x512 S8x128x128x512 where
  lhsContracting := [3]
  rhsContracting := [1]
  lhsNonContracting := [0, 1, 2]
  rhsNonContracting := [0]
  lhsBatch := []
  rhsBatch := []
  wf := dot_S8x128x128x512_S512x512_S8x128x128x512_3_1_012_0_n_n_wf

class Facts : Prop extends Facts₀ where

variable [Facts]
-- ==== Proof.K.Body0.lean ====
/-
  The first region (the projection kernel, grid of 8 points, one batch entry per point), stated at a parameter V:
  the core's buffer contents when the region is entered.

  At point t the body loads the whole [1,128,512] block of x, the whole [512,512] transposed weight matrix, and
  stores one [1,128,512] block: the matrix product of the two. So after the body the output window's buffer is a
  function of the two input blocks alone (proj0Block), the input windows' buffers are unchanged, and the pipeline's
  proof data (dat0) records exactly that. The body obligation is the body's triple applied at the blocks the
  pipeline has fetched.
-/
import proofs.«180656_j86199993631321_1_alg».proof.Proof.Gen.Kernel.Launch
import proofs.«180656_j86199993631321_1_alg».proof.Proof.Gen.Kernel.Skeleton
import proofs.«180656_j86199993631321_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each load and the store takes its buffer whole -/

abbrev rX0 : Rect S1x128x512 := Rect.unit (s := S1x128x512) ![0, 0, 0] S1x128x512.size inb_S1x128x512_S1x128x512_0_0_0
abbrev rW0 : Rect S512x512 := Rect.unit (s := S512x512) ![0, 0] S512x512.size inb_S512x512_S512x512_0_0

/-- What the body leaves in the output window's buffer, from the two input blocks: its one store, of the product. -/
def proj0Block (x0 : Vec F S1x128x512 .f32) (x1 : Vec F S512x512 .bf16) : Vec F S1x128x512 .f32 :=
  View.canon [⟨rX0, k0_pay1 (View.ld x0 rX0) (View.ld x1 rW0)⟩]

/-- The one store covers the whole buffer. -/
theorem cover0 (p0 : Vec F S1x128x512 .f32) (y : S1x128x512.Idx) :
    ∃ pc ∈ ([⟨rX0, p0⟩] : List (View.Piece (Elt F) S1x128x512 .f32)), y ∈ pc.1.set :=
  View.cover_of_tiled [⟨rX0, p0⟩] S1x128x512.size (by rfl) y

/-! ## The body's triple -/

set_option maxHeartbeats 1000000 in
/-- On whole staging memrefs, the inputs at contents x0 and x1 and the output at anything, the body runs to the
    continuation with the inputs as they were and the output at proj0Block x0 x1. -/
theorem sound_kernel0 (c : Dev nD) (E : Set ℕ) (i : grid0.Coords)
    (arg1 : Memref sig .tc .vmem S1x128x512 .f32) (harg1 : arg1.IsWhole)
    (arg2 : Memref sig .tc .vmem S512x512 .bf16) (harg2 : arg2.IsWhole)
    (arg3 : Memref sig .tc .vmem S1x128x512 .f32) (harg3 : arg3.IsWhole)
    (x0 : Vec F S1x128x512 .f32) (x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (proj0Block x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of the first pipeline on core c: the arrays as the region finds them; after the body at point t
    each input's buffer at its block and the output's at proj0Block of the two; the invariant is the scoped rest and
    the generator register, untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => proj0Block (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = proj0Block (iblk0 V c 0 t) (iblk0 V c 1 t) := by dsimp only [dat0]

/-- An input window's current staging buffer holds its block at every point, fetched there or not: where it is not
    fetched the block index has not moved since the fetch, and the body leaves the buffer as it found it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The second region (the broadcast-add kernel, grid 8 x 4: batch entry, tile of 32 rows j), stated at a parameter V:
  the core's buffer contents when the region is entered.

  At point t the body loads the whole [1,128,512] block of projected rows, the [1,32,512] tile of the same
  projected array, the bias, and stores one [1,128,32,512] block: row i plus row j plus the bias. Two of its
  input windows read ONE array; the core holds that array once, so the two windows hold complementary halves
  of its share (q). The output window's buffer after the body is a function of the three input blocks alone
  (pairAddBlock).
-/
import proofs.«180656_j86199993631321_1_alg».proof.Proof.Gen.Kernel.Launch
import proofs.«180656_j86199993631321_1_alg».proof.Proof.Gen.Kernel.Skeleton
import proofs.«180656_j86199993631321_1_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each load and the store takes its buffer whole -/

abbrev rI1 : Rect S1x128x512 := Rect.unit (s := S1x128x512) ![0, 0, 0] S1x128x512.size inb_S1x128x512_S1x128x512_0_0_0
abbrev rJ1 : Rect S1x32x512 := Rect.unit (s := S1x32x512) ![0, 0, 0] S1x32x512.size inb_S1x32x512_S1x32x512_0_0_0
abbrev rB1 : Rect S512 := Rect.unit (s := S512) ![0] S512.size inb_S512_S512_0
abbrev rO1 : Rect S1x128x32x512 := Rect.unit (s := S1x128x32x512) ![0, 0, 0, 0] S1x128x32x512.size inb_S1x128x32x512_S1x128x32x512_0_0_0_0

/-- What the body leaves in the output window's buffer, from the three input blocks: its one store. -/
def pairAddBlock (x0 : Vec F S1x128x512 .f32) (x1 : Vec F S1x32x512 .f32) (x2 : Vec F S512 .f32) : Vec F S1x128x32x512 .f32 :=
  View.canon [⟨rO1, k1_pay1 (View.ld x0 rI1) (View.ld x1 rJ1) (View.ld x2 rB1)⟩]

/-- The one store covers the whole buffer. -/
theorem cover1 (p0 : Vec F S1x128x32x512 .f32) (y : S1x128x32x512.Idx) :
    ∃ pc ∈ ([⟨rO1, p0⟩] : List (View.Piece (Elt F) S1x128x32x512 .f32)), y ∈ pc.1.set :=
  View.cover_of_tiled [⟨rO1, p0⟩] S1x128x32x512.size (by rfl) y

/-! ## The body's triple -/

set_option maxHeartbeats 1000000 in
/-- On whole staging memrefs, the inputs at contents x0, x1, x2 and the output at anything, the body runs to the
    continuation with the inputs as they were and the output at pairAddBlock x0 x1 x2. -/
theorem sound_kernel1 (c : Dev nD) (E : Set ℕ) (i : grid1.Coords)
    (arg2 : Memref sig .tc .vmem S1x128x512 .f32) (harg2 : arg2.IsWhole)
    (arg3 : Memref sig .tc .vmem S1x32x512 .f32) (harg3 : arg3.IsWhole)
    (arg4 : Memref sig .tc .vmem S512 .f32) (harg4 : arg4.IsWhole)
    (arg5 : Memref sig .tc .vmem S1x128x32x512 .f32) (harg5 : arg5.IsWhole)
    (x0 : Vec F S1x128x512 .f32) (x1 : Vec F S1x32x512 .f32) (x2 : Vec F S512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (pairAddBlock x0 x1 x2)) -∗ K ⟨⟩))
      ⊢ wp frame (wpE (defs₀ (F := F)) Variants.none c none) E (cc1__bcast_add_kernel i arg2 harg2 arg3 harg3 arg4 harg4 arg5 harg5) K := by
  simp only [cc1__bcast_add_kernel_eq_skeleton]; unfold cc1__bcast_add_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The pipeline's proof data -/

/-- The proof data of the second pipeline on core c: the arrays as the region finds them; after the body at point t
    each input's buffer at its block and the output's at pairAddBlock of the three; the invariant is the scoped rest
    and the generator register, untouched; nothing owed. The two windows on the projected array hold the two halves
    of its share; the bias is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => pairAddBlock (iblk1 V c 0 t) (iblk1 V c 1 t) (iblk1 V c 2 t)
  Φ _ := Pipeline.ΦA spec1 c
  q w := match w with
    | ⟨0, _⟩ => (fullShare : PosShare TreeShare).left
    | ⟨1, _⟩ => (fullShare : PosShare TreeShare).right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = pairAddBlock (iblk1 V c 0 t) (iblk1 V c 1 t) (iblk1 V c 2 t) := by dsimp only [dat1]

/-- The shares the core holds the four arrays at. -/
theorem share1_0 (c : Dev nD) : (dat1 V c).share 0 = (fullShare : PosShare TreeShare).left := rfl
theorem share1_1 (c : Dev nD) : (dat1 V c).share 1 = (fullShare : PosShare TreeShare).right := rfl
theorem share1_2 (c : Dev nD) : (dat1 V c).share 2 = fullShare := rfl
theorem share1_3 (c : Dev nD) : (dat1 V c).share 3 = fullShare := rfl

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of @main: two host operations (transpose the weights, change their format), the projection region,
  the broadcast-add region.

  Between the items a core holds every unscoped buffer whole, at contents that are a fold from the launch memory:
  after the host operations (bd1), then with the projected array at what the first pipeline's write-backs leave
  (bd2), then with the result array at what the second pipeline's write-backs leave (bd3). Each region is entered
  by sorting its windows' arrays out of those buffers and left by putting them back. The second region reads the
  projected array through TWO windows: at entry the buffer's full share is split into its two halves, one per
  window; at exit both windows hold the array as it was entered (an input is never written), and the halves
  are joined again. The conclusion names every unscoped buffer's final contents (bd3).
-/
import proofs.«180656_j86199993631321_1_alg».proof.Proof.Gen.Kernel.Launch
import proofs.«180656_j86199993631321_1_alg».proof.Proof.Gen.Kernel.Skeleton
import proofs.«180656_j86199993631321_1_alg».proof.Proof.Gen.Kernel.Points
import proofs.«180656_j86199993631321_1_alg».proof.Proof.Gen.Kernel.Regions
import proofs.«180656_j86199993631321_1_alg».proof.Proof.K.Body0
import proofs.«180656_j86199993631321_1_alg».proof.Proof.K.Body1
import Idealize.ShloMosaic.Lib.Pipeline.Regions
import Idealize.ShloMosaic.Lib.Pipeline.FrameBody
import Idealize.ShloMosaic.Lib.Pipeline.Frame
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at each boundary -/

/-- At launch. -/
abbrev bd0 : Dev nD → Valuation τ sig (Elt F) := fun c b => m (c, b)
/-- After the two host operations: the first region's entry. -/
abbrev bd1 : Dev nD → Valuation τ sig (Elt F) := fun c => StableHlo.after hostOps0 (bd0 m c)
/-- The same read at the core's references. -/
abbrev ent0 : (c : Dev nD) → (b : Ref sig .tc) → Buf (Elt F) ((c : Thread nD τ).loc b) := fun c b => bd1 m c (Proc.devRef .tc b)
/-- After the first region: the projected array at what the pipeline's write-backs leave, the rest as entered. -/
def bd2 (c : Dev nD) : Valuation τ sig (Elt F) :=
  Function.update (bd1 m c) (Proc.devRef .tc main_v2) ((dat0 (ent0 m) c).arrAt 2 cfg0.N : Buf (Elt F) ((c : Thread nD τ).loc main_v2))
abbrev ent1 : (c : Dev nD) → (b : Ref sig .tc) → Buf (Elt F) ((c : Thread nD τ).loc b) := fun c b => bd2 m c (Proc.devRef .tc b)
/-- After the second region: the result array at what the pipeline's write-backs leave, the rest as entered. -/
def bd3 (c : Dev nD) : Valuation τ sig (Elt F) :=
  Function.update (bd2 m c) (Proc.devRef .tc main_v3) ((dat1 (ent1 m) c).arrAt 3 cfg1.N : Buf (Elt F) ((c : Thread nD τ).loc main_v3))
abbrev fin1 : (c : Dev nD) → (b : Ref sig .tc) → Buf (Elt F) ((c : Thread nD τ).loc b) := fun c b => bd3 m c (Proc.devRef .tc b)

theorem bd2_v2 (c : Dev nD) : bd2 m c (Proc.devRef .tc main_v2) = (dat0 (ent0 m) c).arrAt 2 cfg0.N := by
  unfold bd2; exact Function.update_self ..
theorem bd2_of_ne (c : Dev nD) (b : Ref sig .tc) (hb : b ≠ main_v2) : bd2 m c (Proc.devRef .tc b) = bd1 m c (Proc.devRef .tc b) := by
  unfold bd2; exact Function.update_of_ne (StableHlo.devRef_ne_of_ne hb) ..
theorem bd3_v3 (c : Dev nD) : bd3 m c (Proc.devRef .tc main_v3) = (dat1 (ent1 m) c).arrAt 3 cfg1.N := by
  unfold bd3; exact Function.update_self ..
theorem bd3_of_ne (c : Dev nD) (b : Ref sig .tc) (hb : b ≠ main_v3) : bd3 m c (Proc.devRef .tc b) = bd2 m c (Proc.devRef .tc b) := by
  unfold bd3; exact Function.update_of_ne (StableHlo.devRef_ne_of_ne hb) ..

/-- An argument is written by no host operation and by no region: it ends as launched. -/
theorem bd3_arg (c : Dev nD) (b : Ref sig .tc) (h3 : b ≠ main_v3) (h2 : b ≠ main_v2) (hw : b ∉ hostOps0_W) :
    bd3 m c (Proc.devRef .tc b) = m ((c : Thread nD τ).loc b) :=
  (bd3_of_ne m c b h3).trans <| (bd2_of_ne m c b h2).trans <| (Gen.V1_of m c b hw).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-- The host operations as an item, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (bd0 m) R

/-- The last thread state without what the core owes. -/
abbrev Tfin (c : Dev nD) : sProp 𝕄 := iprop(StableHlo.held (c : Thread nD τ) (Pipeline.ucRefs τ sig) (bd3 m c) ∗ ∃ r, prngReg c r)

/-! ## The first region's arrays at its exit -/

theorem hF0 (c : Dev nD) (w : Fin cfg0.W) : (dat0 (ent0 m) c).arrAt w cfg0.N = ent1 m c (Pipeline.arrRef spec0 w) :=
  match w with
  | ⟨0, _⟩ => ((dat0 (ent0 m) c).arrAt_in 0 rfl _).trans ((A_eq0 (ent0 m) c 0).trans (bd2_of_ne m c main_arg0 (by decide)).symm)
  | ⟨1, _⟩ => ((dat0 (ent0 m) c).arrAt_in 1 rfl _).trans ((A_eq0 (ent0 m) c 1).trans (bd2_of_ne m c main_v1 (by decide)).symm)
  | ⟨2, _⟩ => (bd2_v2 m c).symm
theorem hrest0 (c : Dev nD) : ∀ b, b ∉ Finset.univ.image (Pipeline.arrRef spec0) → ent1 m c b = ent0 m c b :=
  fun b hb => bd2_of_ne m c b fun e => hb (Finset.mem_image.mpr ⟨2, Finset.mem_univ _, e.symm⟩)

/-! ## The second region's arrays: two windows on one buffer -/

/-- The distinct buffers behind the second region's windows, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_arg2) ↦{fullShare} V main_arg2)
          ∗ (((c : Thread nD τ).loc main_v3) ↦{fullShare} V main_v3)) := by
  unfold Pipeline.arrBufs
  rw [bigSep_eq_bigSepL_of_eq [main_v2, main_arg2, main_v3] (by decide) (by decide)]
  rfl

/-- The second pipeline's arrays, window by window: the projected array at the two halves of its share, the bias and
    the result whole. -/
theorem arrays1_eq (c : Dev nD) (V : (c : Dev nD) → (b : Ref sig .tc) → Buf (Elt F) ((c : Thread nD τ).loc b))
    (Fa : (w : Fin cfg1.W) → Buf (Elt F) ((cfg1.win w).arr.view.loc (c : Thread nD τ))) :
    ((dat1 V c).arrays Fa : sProp 𝕄)
      = iprop((((c : Thread nD τ).loc main_v2) ↦{(fullShare : PosShare TreeShare).left} Fa 0)
          ∗ (((c : Thread nD τ).loc main_v2) ↦{(fullShare : PosShare TreeShare).right} Fa 1)
          ∗ (((c : Thread nD τ).loc main_arg2) ↦{fullShare} Fa 2)
          ∗ (((c : Thread nD τ).loc main_v3) ↦{fullShare} Fa 3)) := by
  unfold Dat.arrays
  rw [bigSep_W1, (arr_whole1 0).set_eq_univ, (arr_whole1 2).set_eq_univ, (arr_whole1 3).set_eq_univ]
  rfl

/-- ENTRY of the second region: its three buffers, each whole at the full share, make the pipeline's arrays — the
    projected array's share split into its two halves, one for each window that reads it. -/
theorem arrays1_of_bufs (c : Dev nD) (V : (c : Dev nD) → (b : Ref sig .tc) → Buf (Elt F) ((c : Thread nD τ).loc b))
    (Fa : (w : Fin cfg1.W) → Buf (Elt F) ((cfg1.win w).arr.view.loc (c : Thread nD τ)))
    (a2 : Buf (Elt F) ((c : Thread nD τ).loc main_v2)) (ab : Buf (Elt F) ((c : Thread nD τ).loc main_arg2)) (a3 : Buf (Elt F) ((c : Thread nD τ).loc main_v3))
    (h0 : Fa 0 = a2) (h1 : Fa 1 = a2) (h2 : Fa 2 = ab) (h3 : Fa 3 = a3) :
    iprop((((c : Thread nD τ).loc main_v2) ↦{fullShare} a2) ∗ (((c : Thread nD τ).loc main_arg2) ↦{fullShare} ab) ∗ (((c : Thread nD τ).loc main_v3) ↦{fullShare} a3))
      ⊢ ((dat1 V c).arrays Fa : sProp 𝕄) := by
  rw [arrays1_eq, h0, h1, h2, h3]
  iintro ⟨Hv2, Hb, Hv3⟩
  ihave H2 := (pointsTo_share (PosShare.mem_left_op_right (fullShare : PosShare TreeShare))).1 $$ Hv2
  icases H2 with ⟨Hl, Hr⟩
  isplitl [Hl]; · iexact Hl
  isplitl [Hr]; · iexact Hr
  isplitl [Hb]; · iexact Hb
  iexact Hv3

/-- EXIT of the second region: the two halves, at one contents, are the projected array's buffer whole again. -/
theorem bufs_of_arrays1 (c : Dev nD) (V : (c : Dev nD) → (b : Ref sig .tc) → Buf (Elt F) ((c : Thread nD τ).loc b))
    (Fa : (w : Fin cfg1.W) → Buf (Elt F) ((cfg1.win w).arr.view.loc (c : Thread nD τ)))
    (a2 : Buf (Elt F) ((c : Thread nD τ).loc main_v2)) (ab : Buf (Elt F) ((c : Thread nD τ).loc main_arg2)) (a3 : Buf (Elt F) ((c : Thread nD τ).loc main_v3))
    (h0 : Fa 0 = a2) (h1 : Fa 1 = a2) (h2 : Fa 2 = ab) (h3 : Fa 3 = a3) :
    ((dat1 V c).arrays Fa : sProp 𝕄)
      ⊢ iprop((((c : Thread nD τ).loc main_v2) ↦{fullShare} a2) ∗ (((c : Thread nD τ).loc main_arg2) ↦{fullShare} ab) ∗ (((c : Thread nD τ).loc main_v3) ↦{fullShare} a3)) := by
  rw [arrays1_eq, h0, h1, h2, h3]
  iintro ⟨Hl, Hr, Hb, Hv3⟩
  ihave Hv2 := (pointsTo_share (PosShare.mem_left_op_right (fullShare : PosShare TreeShare))).2 $$ [Hl Hr]
  · isplitl [Hl] <;> iassumption
  isplitl [Hv2]; · iexact Hv2
  isplitl [Hb]; · iexact Hb
  iexact Hv3

/-! ## The regions as items -/

set_option backward.isDefEq.respectTransparency.types false in
/-- The FIRST region: entered from every unscoped buffer at bd1, left at bd2. Its three arrays are distinct buffers:
    they are sorted out of the unscoped buffers whole and put back at the exit contents; the generator register goes
    into the invariant and comes back; nothing is owed; the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (bd1 m c) ∗ R c)
  post c := iprop(StableHlo.held (c : Thread nD τ) (Pipeline.ucRefs τ sig) (bd2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (ent1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at bd2 are the second region's three buffers and the rest. -/
theorem held_split1 (c : Dev nD) (W : Valuation τ sig (Elt F)) :
    (StableHlo.held (c : Thread nD τ) (Pipeline.ucRefs τ sig) W : sProp 𝕄)
      = iprop(((((c : Thread nD τ).loc main_v2) ↦{fullShare} W (Proc.devRef .tc main_v2)) ∗ (((c : Thread nD τ).loc main_arg2) ↦{fullShare} W (Proc.devRef .tc main_arg2))
          ∗ (((c : Thread nD τ).loc main_v3) ↦{fullShare} W (Proc.devRef .tc main_v3)))
        ∗ Pipeline.unscopedRest (Ix := Unit) (Name := ℕ) (U := UR sig nD τ) (Lvl := ℕ) spec1 c (fun b => W (Proc.devRef .tc b))) := by
  rw [← Pipeline.unscopedBufs_held (Ix := Unit) (Name := ℕ) (U := UR sig nD τ) (Lvl := ℕ) c W,
    Pipeline.unscopedBufs_split₀ (cfgs) 1 winFacts₀1.arr_unscoped c (fun b => W (Proc.devRef .tc b))]
  exact congrArg (fun P : sProp 𝕄 => iprop(P ∗ Pipeline.unscopedRest (Ix := Unit) (Name := ℕ) (U := UR sig nD τ) (Lvl := ℕ) spec1 c (fun b => W (Proc.devRef .tc b))))
    (arrBufs1_eq c (fun b => W (Proc.devRef .tc b)))

/-- Off the result array the rest is the same at bd3 as at bd2. -/
theorem rest1_eq (c : Dev nD) :
    (Pipeline.unscopedRest (Ix := Unit) (Name := ℕ) (U := UR sig nD τ) (Lvl := ℕ) spec1 c (ent1 m c) : sProp 𝕄)
      = Pipeline.unscopedRest (Ix := Unit) (Name := ℕ) (U := UR sig nD τ) (Lvl := ℕ) spec1 c (fin1 m c) := by
  unfold Pipeline.unscopedRest
  exact bigSep_congr fun b hb => by
    rw [show fin1 m c b = ent1 m c b from bd3_of_ne m c b fun e => (Finset.mem_sdiff.mp hb).2 (Finset.mem_image.mpr ⟨3, Finset.mem_univ _, e.symm⟩)]

set_option backward.isDefEq.respectTransparency.types false in
/-- The SECOND region: entered from every unscoped buffer at bd2, left at bd3. The projected array's buffer is split
    into the two halves of its share, one per window that reads it, and joined again at the exit, where both windows
    hold it as entered. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (bd2 m c) ∗ R c)
  post c := iprop(Tfin m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none, held_split1]
    iintro ⟨⟨⟨Hbufs, Hrest⟩, Hp, HO⟩, -, -⟩
    have hsplit : iprop((((c : Thread nD τ).loc main_v2) ↦{fullShare} bd2 m c (Proc.devRef .tc main_v2))
            ∗ (((c : Thread nD τ).loc main_arg2) ↦{fullShare} bd2 m c (Proc.devRef .tc main_arg2))
            ∗ (((c : Thread nD τ).loc main_v3) ↦{fullShare} bd2 m c (Proc.devRef .tc main_v3)))
        ⊢ ((pdats m 1 c).arrays ((pdats m 1 c).arrAt · 0) : sProp 𝕄) :=
      arrays1_of_bufs c (ent1 m) ((pdats m 1 c).arrAt · 0) (ent1 m c main_v2) (ent1 m c main_arg2) (ent1 m c main_v3) rfl rfl rfl rfl
    ihave Ha := hsplit $$ Hbufs
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have h0 : (pdats m 1 c).arrAt 0 (Pipeline.pin (pcfgs (F := F)) Gen.adm 1).N = bd3 m c (Proc.devRef .tc main_v2) :=
      ((dat1 (ent1 m) c).arrAt_in 0 rfl _).trans ((A_eq1 (ent1 m) c 0).trans (bd3_of_ne m c main_v2 (by decide)).symm)
    have h1 : (pdats m 1 c).arrAt 1 (Pipeline.pin (pcfgs (F := F)) Gen.adm 1).N = bd3 m c (Proc.devRef .tc main_v2) :=
      ((dat1 (ent1 m) c).arrAt_in 1 rfl _).trans ((A_eq1 (ent1 m) c 1).trans (bd3_of_ne m c main_v2 (by decide)).symm)
    have h2 : (pdats m 1 c).arrAt 2 (Pipeline.pin (pcfgs (F := F)) Gen.adm 1).N = bd3 m c (Proc.devRef .tc main_arg2) :=
      ((dat1 (ent1 m) c).arrAt_in 2 rfl _).trans ((A_eq1 (ent1 m) c 2).trans (bd3_of_ne m c main_arg2 (by decide)).symm)
    have h3 : (pdats m 1 c).arrAt 3 (Pipeline.pin (pcfgs (F := F)) Gen.adm 1).N = bd3 m c (Proc.devRef .tc main_v3) := (bd3_v3 m c).symm
    dsimp only [Tfin]
    rw [held_split1, ← rest1_eq]
    iintro ⟨Ha, HO, HY, Hrest⟩
    have hjoin : ((pdats m 1 c).arrays ((pdats m 1 c).arrAt · (Pipeline.pin (pcfgs (F := F)) Gen.adm 1).N) : sProp 𝕄)
        ⊢ iprop((((c : Thread nD τ).loc main_v2) ↦{fullShare} bd3 m c (Proc.devRef .tc main_v2))
            ∗ (((c : Thread nD τ).loc main_arg2) ↦{fullShare} bd3 m c (Proc.devRef .tc main_arg2))
            ∗ (((c : Thread nD τ).loc main_v3) ↦{fullShare} bd3 m c (Proc.devRef .tc main_v3))) :=
      bufs_of_arrays1 c (ent1 m) ((pdats m 1 c).arrAt · (Pipeline.pin (pcfgs (F := F)) Gen.adm 1).N)
        (bd3 m c (Proc.devRef .tc main_v2)) (bd3 m c (Proc.devRef .tc main_arg2)) (bd3 m c (Proc.devRef .tc main_v3)) h0 h1 h2 h3
    ihave Hb := hjoin $$ Ha
    imodintro
    isplitl [Hb Hrest HY]
    · isplitl [Hb Hrest]
      · isplitl [Hb]; · iexact Hb
        iexact Hrest
      iexact HY
    unfold Pipeline.Dat.owesAt Pipeline.owesWithin
    icases HO with ⟨%W, -, HO⟩; iexists W; iexact HO

/-! ## @main as items, and the launch -/

/-- @main's three items in order. -/
abbrev mainSegs : List (Seg (pcfgs (F := F)) Gen.adm (pdats m) () defs₀ 𝒱₀ L lv) :=
  [ .host (hseg0 m), .region (reg0 m), .region (reg1 m) ]

set_option backward.isDefEq.respectTransparency.types false in
/-- THE RUN, at any float values: from any memory with zero counters, every weakly fair execution of @main on the
    cores terminates, nothing faulting, and every final memory holds each unscoped buffer at bd3. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = bd3 m c b) :=
  Pipeline.θ_run_regions_kit (pcfgs (F := F)) Gen.adm (pdats m) () cellOf_inj emb₁ defs₀ 𝒱₀ L lv m ρ main (mainSegs m)
    (fun c Q => by
      rewrite [main_chain c, Seg.run_eq_chain,
        show (mainSegs m).map Seg.prog = [
          StableHlo.seq hostOps0,
          Prog.lift (.customCall (Pipeline.entry 0) ()),
          Prog.lift (.customCall (Pipeline.entry 1) ()) ] from rfl]
      exact .rfl)
    (by simp only [mainSegs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m c) ∗ R c)) (Tₙ := Tfin m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (bd0 m c)
        from Pipeline.unscopedBufs_held c (bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd3 m c b)
    (hfin := fun c s' => by
      iintro ⟨⟨Hh, -⟩, HSI⟩
      unfold StableHlo.held
      imodintro
      iapply (pointsTo_read_all (Pipeline.ucRefs τ sig) (fun b => (((c : Thread nD τ)).1, b)) (bd3 m c) s')
      isplitl [Hh] <;> iassumption)
    (hQ := fun s h c => h c)

/-- An unscoped reference of the core is among those the run's conclusion names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KI.Body0.lean ====
/-
  The first region (the projection kernel, grid of 8 points, one batch entry per point), stated at a parameter V:
  the core's buffer contents when the region is entered.

  At point t the body loads the whole [1,128,512] block of x, the whole [512,512] transposed weight matrix, and
  stores one [1,128,512] block: the matrix product of the two. So after the body the output window's buffer is a
  function of the two input blocks alone (proj0Block), the input windows' buffers are unchanged, and the pipeline's
  proof data (dat0) records exactly that. The body obligation is the body's triple applied at the blocks the
  pipeline has fetched.
-/
import proofs.«180656_j86199993631321_1_alg».proof.Proof.Gen.KernelIdeal.Launch
import proofs.«180656_j86199993631321_1_alg».proof.Proof.Gen.KernelIdeal.Skeleton
import proofs.«180656_j86199993631321_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each load and the store takes its buffer whole -/

abbrev rX0 : Rect S1x128x512 := Rect.unit (s := S1x128x512) ![0, 0, 0] S1x128x512.size inb_S1x128x512_S1x128x512_0_0_0
abbrev rW0 : Rect S512x512 := Rect.unit (s := S512x512) ![0, 0] S512x512.size inb_S512x512_S512x512_0_0

/-- What the body leaves in the output window's buffer, from the two input blocks: its one store, of the product. -/
def proj0Block (x0 : Vec F S1x128x512 .f32) (x1 : Vec F S512x512 .bf16) : Vec F S1x128x512 .f32 :=
  View.canon [⟨rX0, k0_pay1 (View.ld x0 rX0) (View.ld x1 rW0)⟩]

/-- The one store covers the whole buffer. -/
theorem cover0 (p0 : Vec F S1x128x512 .f32) (y : S1x128x512.Idx) :
    ∃ pc ∈ ([⟨rX0, p0⟩] : List (View.Piece (Elt F) S1x128x512 .f32)), y ∈ pc.1.set :=
  View.cover_of_tiled [⟨rX0, p0⟩] S1x128x512.size (by rfl) y

/-! ## The body's triple -/

set_option maxHeartbeats 1000000 in
/-- On whole staging memrefs, the inputs at contents x0 and x1 and the output at anything, the body runs to the
    continuation with the inputs as they were and the output at proj0Block x0 x1. -/
theorem sound_kernel0 (c : Dev nD) (E : Set ℕ) (i : grid0.Coords)
    (arg1 : Memref sig .tc .vmem S1x128x512 .f32) (harg1 : arg1.IsWhole)
    (arg2 : Memref sig .tc .vmem S512x512 .bf16) (harg2 : arg2.IsWhole)
    (arg3 : Memref sig .tc .vmem S1x128x512 .f32) (harg3 : arg3.IsWhole)
    (x0 : Vec F S1x128x512 .f32) (x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (proj0Block x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The pipeline's proof data -/

/-- The proof data of the first pipeline on core c: the arrays as the region finds them; after the body at point t
    each input's buffer at its block and the output's at proj0Block of the two; the invariant is the scoped rest and
    the generator register, untouched; nothing owed; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => proj0Block (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = proj0Block (iblk0 V c 0 t) (iblk0 V c 1 t) := by dsimp only [dat0]

/-- An input window's current staging buffer holds its block at every point, fetched there or not: where it is not
    fetched the block index has not moved since the fetch, and the body leaves the buffer as it found it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second region (the broadcast-add kernel, grid 8 x 4: batch entry, tile of 32 rows j), stated at a parameter V:
  the core's buffer contents when the region is entered.

  At point t the body loads the whole [1,128,512] block of projected rows, the [1,32,512] tile of the same
  projected array, the bias, and stores one [1,128,32,512] block: row i plus row j plus the bias. Two of its
  input windows read ONE array; the core holds that array once, so the two windows hold complementary halves
  of its share (q). The output window's buffer after the body is a function of the three input blocks alone
  (pairAddBlock).
-/
import proofs.«180656_j86199993631321_1_alg».proof.Proof.Gen.KernelIdeal.Launch
import proofs.«180656_j86199993631321_1_alg».proof.Proof.Gen.KernelIdeal.Skeleton
import proofs.«180656_j86199993631321_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each load and the store takes its buffer whole -/

abbrev rI1 : Rect S1x128x512 := Rect.unit (s := S1x128x512) ![0, 0, 0] S1x128x512.size inb_S1x128x512_S1x128x512_0_0_0
abbrev rJ1 : Rect S1x32x512 := Rect.unit (s := S1x32x512) ![0, 0, 0] S1x32x512.size inb_S1x32x512_S1x32x512_0_0_0
abbrev rB1 : Rect S512 := Rect.unit (s := S512) ![0] S512.size inb_S512_S512_0
abbrev rO1 : Rect S1x128x32x512 := Rect.unit (s := S1x128x32x512) ![0, 0, 0, 0] S1x128x32x512.size inb_S1x128x32x512_S1x128x32x512_0_0_0_0

/-- What the body leaves in the output window's buffer, from the three input blocks: its one store. -/
def pairAddBlock (x0 : Vec F S1x128x512 .f32) (x1 : Vec F S1x32x512 .f32) (x2 : Vec F S512 .f32) : Vec F S1x128x32x512 .f32 :=
  View.canon [⟨rO1, k1_pay1 (View.ld x0 rI1) (View.ld x1 rJ1) (View.ld x2 rB1)⟩]

/-- The one store covers the whole buffer. -/
theorem cover1 (p0 : Vec F S1x128x32x512 .f32) (y : S1x128x32x512.Idx) :
    ∃ pc ∈ ([⟨rO1, p0⟩] : List (View.Piece (Elt F) S1x128x32x512 .f32)), y ∈ pc.1.set :=
  View.cover_of_tiled [⟨rO1, p0⟩] S1x128x32x512.size (by rfl) y

/-! ## The body's triple -/

set_option maxHeartbeats 1000000 in
/-- On whole staging memrefs, the inputs at contents x0, x1, x2 and the output at anything, the body runs to the
    continuation with the inputs as they were and the output at pairAddBlock x0 x1 x2. -/
theorem sound_kernel1 (c : Dev nD) (E : Set ℕ) (i : grid1.Coords)
    (arg2 : Memref sig .tc .vmem S1x128x512 .f32) (harg2 : arg2.IsWhole)
    (arg3 : Memref sig .tc .vmem S1x32x512 .f32) (harg3 : arg3.IsWhole)
    (arg4 : Memref sig .tc .vmem S512 .f32) (harg4 : arg4.IsWhole)
    (arg5 : Memref sig .tc .vmem S1x128x32x512 .f32) (harg5 : arg5.IsWhole)
    (x0 : Vec F S1x128x512 .f32) (x1 : Vec F S1x32x512 .f32) (x2 : Vec F S512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (pairAddBlock x0 x1 x2)) -∗ K ⟨⟩))
      ⊢ wp frame (wpE (defs₀ (F := F)) Variants.none c none) E (cc1__bcast_add_kernel i arg2 harg2 arg3 harg3 arg4 harg4 arg5 harg5) K := by
  simp only [cc1__bcast_add_kernel_eq_skeleton]; unfold cc1__bcast_add_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The pipeline's proof data -/

/-- The proof data of the second pipeline on core c: the arrays as the region finds them; after the body at point t
    each input's buffer at its block and the output's at pairAddBlock of the three; the invariant is the scoped rest
    and the generator register, untouched; nothing owed. The two windows on the projected array hold the two halves
    of its share; the bias is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => pairAddBlock (iblk1 V c 0 t) (iblk1 V c 1 t) (iblk1 V c 2 t)
  Φ _ := Pipeline.ΦA spec1 c
  q w := match w with
    | ⟨0, _⟩ => (fullShare : PosShare TreeShare).left
    | ⟨1, _⟩ => (fullShare : PosShare TreeShare).right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = pairAddBlock (iblk1 V c 0 t) (iblk1 V c 1 t) (iblk1 V c 2 t) := by dsimp only [dat1]

/-- The shares the core holds the four arrays at. -/
theorem share1_0 (c : Dev nD) : (dat1 V c).share 0 = (fullShare : PosShare TreeShare).left := rfl
theorem share1_1 (c : Dev nD) : (dat1 V c).share 1 = (fullShare : PosShare TreeShare).right := rfl
theorem share1_2 (c : Dev nD) : (dat1 V c).share 2 = fullShare := rfl
theorem share1_3 (c : Dev nD) : (dat1 V c).share 3 = fullShare := rfl

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of @main: two host operations (transpose the weights, change their format), the projection region,
  the broadcast-add region.

  Between the items a core holds every unscoped buffer whole, at contents that are a fold from the launch memory:
  after the host operations (bd1), then with the projected array at what the first pipeline's write-backs leave
  (bd2), then with the result array at what the second pipeline's write-backs leave (bd3). Each region is entered
  by sorting its windows' arrays out of those buffers and left by putting them back. The second region reads the
  projected array through TWO windows: at entry the buffer's full share is split into its two halves, one per
  window; at exit both windows hold the array as it was entered (an input is never written), and the halves
  are joined again. The conclusion names every unscoped buffer's final contents (bd3).
-/
import proofs.«180656_j86199993631321_1_alg».proof.Proof.Gen.KernelIdeal.Launch
import proofs.«180656_j86199993631321_1_alg».proof.Proof.Gen.KernelIdeal.Skeleton
import proofs.«180656_j86199993631321_1_alg».proof.Proof.Gen.KernelIdeal.Points
import proofs.«180656_j86199993631321_1_alg».proof.Proof.Gen.KernelIdeal.Regions
import proofs.«180656_j86199993631321_1_alg».proof.Proof.KI.Body0
import proofs.«180656_j86199993631321_1_alg».proof.Proof.KI.Body1
import Idealize.ShloMosaic.Lib.Pipeline.Regions
import Idealize.ShloMosaic.Lib.Pipeline.FrameBody
import Idealize.ShloMosaic.Lib.Pipeline.Frame
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at each boundary -/

/-- At launch. -/
abbrev bd0 : Dev nD → Valuation τ sig (Elt F) := fun c b => m (c, b)
/-- After the two host operations: the first region's entry. -/
abbrev bd1 : Dev nD → Valuation τ sig (Elt F) := fun c => StableHlo.after hostOps0 (bd0 m c)
/-- The same read at the core's references. -/
abbrev ent0 : (c : Dev nD) → (b : Ref sig .tc) → Buf (Elt F) ((c : Thread nD τ).loc b) := fun c b => bd1 m c (Proc.devRef .tc b)
/-- After the first region: the projected array at what the pipeline's write-backs leave, the rest as entered. -/
def bd2 (c : Dev nD) : Valuation τ sig (Elt F) :=
  Function.update (bd1 m c) (Proc.devRef .tc main_v2) ((dat0 (ent0 m) c).arrAt 2 cfg0.N : Buf (Elt F) ((c : Thread nD τ).loc main_v2))
abbrev ent1 : (c : Dev nD) → (b : Ref sig .tc) → Buf (Elt F) ((c : Thread nD τ).loc b) := fun c b => bd2 m c (Proc.devRef .tc b)
/-- After the second region: the result array at what the pipeline's write-backs leave, the rest as entered. -/
def bd3 (c : Dev nD) : Valuation τ sig (Elt F) :=
  Function.update (bd2 m c) (Proc.devRef .tc main_v3) ((dat1 (ent1 m) c).arrAt 3 cfg1.N : Buf (Elt F) ((c : Thread nD τ).loc main_v3))
abbrev fin1 : (c : Dev nD) → (b : Ref sig .tc) → Buf (Elt F) ((c : Thread nD τ).loc b) := fun c b => bd3 m c (Proc.devRef .tc b)

theorem bd2_v2 (c : Dev nD) : bd2 m c (Proc.devRef .tc main_v2) = (dat0 (ent0 m) c).arrAt 2 cfg0.N := by
  unfold bd2; exact Function.update_self ..
theorem bd2_of_ne (c : Dev nD) (b : Ref sig .tc) (hb : b ≠ main_v2) : bd2 m c (Proc.devRef .tc b) = bd1 m c (Proc.devRef .tc b) := by
  unfold bd2; exact Function.update_of_ne (StableHlo.devRef_ne_of_ne hb) ..
theorem bd3_v3 (c : Dev nD) : bd3 m c (Proc.devRef .tc main_v3) = (dat1 (ent1 m) c).arrAt 3 cfg1.N := by
  unfold bd3; exact Function.update_self ..
theorem bd3_of_ne (c : Dev nD) (b : Ref sig .tc) (hb : b ≠ main_v3) : bd3 m c (Proc.devRef .tc b) = bd2 m c (Proc.devRef .tc b) := by
  unfold bd3; exact Function.update_of_ne (StableHlo.devRef_ne_of_ne hb) ..

/-- An argument is written by no host operation and by no region: it ends as launched. -/
theorem bd3_arg (c : Dev nD) (b : Ref sig .tc) (h3 : b ≠ main_v3) (h2 : b ≠ main_v2) (hw : b ∉ hostOps0_W) :
    bd3 m c (Proc.devRef .tc b) = m ((c : Thread nD τ).loc b) :=
  (bd3_of_ne m c b h3).trans <| (bd2_of_ne m c b h2).trans <| (Gen.V1_of m c b hw).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-- The host operations as an item, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (bd0 m) R

/-- The last thread state without what the core owes. -/
abbrev Tfin (c : Dev nD) : sProp 𝕄 := iprop(StableHlo.held (c : Thread nD τ) (Pipeline.ucRefs τ sig) (bd3 m c) ∗ ∃ r, prngReg c r)

/-! ## The first region's arrays at its exit -/

theorem hF0 (c : Dev nD) (w : Fin cfg0.W) : (dat0 (ent0 m) c).arrAt w cfg0.N = ent1 m c (Pipeline.arrRef spec0 w) :=
  match w with
  | ⟨0, _⟩ => ((dat0 (ent0 m) c).arrAt_in 0 rfl _).trans ((A_eq0 (ent0 m) c 0).trans (bd2_of_ne m c main_arg0 (by decide)).symm)
  | ⟨1, _⟩ => ((dat0 (ent0 m) c).arrAt_in 1 rfl _).trans ((A_eq0 (ent0 m) c 1).trans (bd2_of_ne m c main_v1 (by decide)).symm)
  | ⟨2, _⟩ => (bd2_v2 m c).symm
theorem hrest0 (c : Dev nD) : ∀ b, b ∉ Finset.univ.image (Pipeline.arrRef spec0) → ent1 m c b = ent0 m c b :=
  fun b hb => bd2_of_ne m c b fun e => hb (Finset.mem_image.mpr ⟨2, Finset.mem_univ _, e.symm⟩)

/-! ## The second region's arrays: two windows on one buffer -/

/-- The distinct buffers behind the second region's windows, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_arg2) ↦{fullShare} V main_arg2)
          ∗ (((c : Thread nD τ).loc main_v3) ↦{fullShare} V main_v3)) := by
  unfold Pipeline.arrBufs
  rw [bigSep_eq_bigSepL_of_eq [main_v2, main_arg2, main_v3] (by decide) (by decide)]
  rfl

/-- The second pipeline's arrays, window by window: the projected array at the two halves of its share, the bias and
    the result whole. -/
theorem arrays1_eq (c : Dev nD) (V : (c : Dev nD) → (b : Ref sig .tc) → Buf (Elt F) ((c : Thread nD τ).loc b))
    (Fa : (w : Fin cfg1.W) → Buf (Elt F) ((cfg1.win w).arr.view.loc (c : Thread nD τ))) :
    ((dat1 V c).arrays Fa : sProp 𝕄)
      = iprop((((c : Thread nD τ).loc main_v2) ↦{(fullShare : PosShare TreeShare).left} Fa 0)
          ∗ (((c : Thread nD τ).loc main_v2) ↦{(fullShare : PosShare TreeShare).right} Fa 1)
          ∗ (((c : Thread nD τ).loc main_arg2) ↦{fullShare} Fa 2)
          ∗ (((c : Thread nD τ).loc main_v3) ↦{fullShare} Fa 3)) := by
  unfold Dat.arrays
  rw [bigSep_W1, (arr_whole1 0).set_eq_univ, (arr_whole1 2).set_eq_univ, (arr_whole1 3).set_eq_univ]
  rfl

/-- ENTRY of the second region: its three buffers, each whole at the full share, make the pipeline's arrays — the
    projected array's share split into its two halves, one for each window that reads it. -/
theorem arrays1_of_bufs (c : Dev nD) (V : (c : Dev nD) → (b : Ref sig .tc) → Buf (Elt F) ((c : Thread nD τ).loc b))
    (Fa : (w : Fin cfg1.W) → Buf (Elt F) ((cfg1.win w).arr.view.loc (c : Thread nD τ)))
    (a2 : Buf (Elt F) ((c : Thread nD τ).loc main_v2)) (ab : Buf (Elt F) ((c : Thread nD τ).loc main_arg2)) (a3 : Buf (Elt F) ((c : Thread nD τ).loc main_v3))
    (h0 : Fa 0 = a2) (h1 : Fa 1 = a2) (h2 : Fa 2 = ab) (h3 : Fa 3 = a3) :
    iprop((((c : Thread nD τ).loc main_v2) ↦{fullShare} a2) ∗ (((c : Thread nD τ).loc main_arg2) ↦{fullShare} ab) ∗ (((c : Thread nD τ).loc main_v3) ↦{fullShare} a3))
      ⊢ ((dat1 V c).arrays Fa : sProp 𝕄) := by
  rw [arrays1_eq, h0, h1, h2, h3]
  iintro ⟨Hv2, Hb, Hv3⟩
  ihave H2 := (pointsTo_share (PosShare.mem_left_op_right (fullShare : PosShare TreeShare))).1 $$ Hv2
  icases H2 with ⟨Hl, Hr⟩
  isplitl [Hl]; · iexact Hl
  isplitl [Hr]; · iexact Hr
  isplitl [Hb]; · iexact Hb
  iexact Hv3

/-- EXIT of the second region: the two halves, at one contents, are the projected array's buffer whole again. -/
theorem bufs_of_arrays1 (c : Dev nD) (V : (c : Dev nD) → (b : Ref sig .tc) → Buf (Elt F) ((c : Thread nD τ).loc b))
    (Fa : (w : Fin cfg1.W) → Buf (Elt F) ((cfg1.win w).arr.view.loc (c : Thread nD τ)))
    (a2 : Buf (Elt F) ((c : Thread nD τ).loc main_v2)) (ab : Buf (Elt F) ((c : Thread nD τ).loc main_arg2)) (a3 : Buf (Elt F) ((c : Thread nD τ).loc main_v3))
    (h0 : Fa 0 = a2) (h1 : Fa 1 = a2) (h2 : Fa 2 = ab) (h3 : Fa 3 = a3) :
    ((dat1 V c).arrays Fa : sProp 𝕄)
      ⊢ iprop((((c : Thread nD τ).loc main_v2) ↦{fullShare} a2) ∗ (((c : Thread nD τ).loc main_arg2) ↦{fullShare} ab) ∗ (((c : Thread nD τ).loc main_v3) ↦{fullShare} a3)) := by
  rw [arrays1_eq, h0, h1, h2, h3]
  iintro ⟨Hl, Hr, Hb, Hv3⟩
  ihave Hv2 := (pointsTo_share (PosShare.mem_left_op_right (fullShare : PosShare TreeShare))).2 $$ [Hl Hr]
  · isplitl [Hl] <;> iassumption
  isplitl [Hv2]; · iexact Hv2
  isplitl [Hb]; · iexact Hb
  iexact Hv3

/-! ## The regions as items -/

set_option backward.isDefEq.respectTransparency.types false in
/-- The FIRST region: entered from every unscoped buffer at bd1, left at bd2. Its three arrays are distinct buffers:
    they are sorted out of the unscoped buffers whole and put back at the exit contents; the generator register goes
    into the invariant and comes back; nothing is owed; the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (bd1 m c) ∗ R c)
  post c := iprop(StableHlo.held (c : Thread nD τ) (Pipeline.ucRefs τ sig) (bd2 m c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (ent1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at bd2 are the second region's three buffers and the rest. -/
theorem held_split1 (c : Dev nD) (W : Valuation τ sig (Elt F)) :
    (StableHlo.held (c : Thread nD τ) (Pipeline.ucRefs τ sig) W : sProp 𝕄)
      = iprop(((((c : Thread nD τ).loc main_v2) ↦{fullShare} W (Proc.devRef .tc main_v2)) ∗ (((c : Thread nD τ).loc main_arg2) ↦{fullShare} W (Proc.devRef .tc main_arg2))
          ∗ (((c : Thread nD τ).loc main_v3) ↦{fullShare} W (Proc.devRef .tc main_v3)))
        ∗ Pipeline.unscopedRest (Ix := Unit) (Name := ℕ) (U := UR sig nD τ) (Lvl := ℕ) spec1 c (fun b => W (Proc.devRef .tc b))) := by
  rw [← Pipeline.unscopedBufs_held (Ix := Unit) (Name := ℕ) (U := UR sig nD τ) (Lvl := ℕ) c W,
    Pipeline.unscopedBufs_split₀ (cfgs) 1 winFacts₀1.arr_unscoped c (fun b => W (Proc.devRef .tc b))]
  exact congrArg (fun P : sProp 𝕄 => iprop(P ∗ Pipeline.unscopedRest (Ix := Unit) (Name := ℕ) (U := UR sig nD τ) (Lvl := ℕ) spec1 c (fun b => W (Proc.devRef .tc b))))
    (arrBufs1_eq c (fun b => W (Proc.devRef .tc b)))

/-- Off the result array the rest is the same at bd3 as at bd2. -/
theorem rest1_eq (c : Dev nD) :
    (Pipeline.unscopedRest (Ix := Unit) (Name := ℕ) (U := UR sig nD τ) (Lvl := ℕ) spec1 c (ent1 m c) : sProp 𝕄)
      = Pipeline.unscopedRest (Ix := Unit) (Name := ℕ) (U := UR sig nD τ) (Lvl := ℕ) spec1 c (fin1 m c) := by
  unfold Pipeline.unscopedRest
  exact bigSep_congr fun b hb => by
    rw [show fin1 m c b = ent1 m c b from bd3_of_ne m c b fun e => (Finset.mem_sdiff.mp hb).2 (Finset.mem_image.mpr ⟨3, Finset.mem_univ _, e.symm⟩)]

set_option backward.isDefEq.respectTransparency.types false in
/-- The SECOND region: entered from every unscoped buffer at bd2, left at bd3. The projected array's buffer is split
    into the two halves of its share, one per window that reads it, and joined again at the exit, where both windows
    hold it as entered. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (bd2 m c) ∗ R c)
  post c := iprop(Tfin m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none, held_split1]
    iintro ⟨⟨⟨Hbufs, Hrest⟩, Hp, HO⟩, -, -⟩
    have hsplit : iprop((((c : Thread nD τ).loc main_v2) ↦{fullShare} bd2 m c (Proc.devRef .tc main_v2))
            ∗ (((c : Thread nD τ).loc main_arg2) ↦{fullShare} bd2 m c (Proc.devRef .tc main_arg2))
            ∗ (((c : Thread nD τ).loc main_v3) ↦{fullShare} bd2 m c (Proc.devRef .tc main_v3)))
        ⊢ ((pdats m 1 c).arrays ((pdats m 1 c).arrAt · 0) : sProp 𝕄) :=
      arrays1_of_bufs c (ent1 m) ((pdats m 1 c).arrAt · 0) (ent1 m c main_v2) (ent1 m c main_arg2) (ent1 m c main_v3) rfl rfl rfl rfl
    ihave Ha := hsplit $$ Hbufs
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have h0 : (pdats m 1 c).arrAt 0 (Pipeline.pin (pcfgs (F := F)) Gen.adm 1).N = bd3 m c (Proc.devRef .tc main_v2) :=
      ((dat1 (ent1 m) c).arrAt_in 0 rfl _).trans ((A_eq1 (ent1 m) c 0).trans (bd3_of_ne m c main_v2 (by decide)).symm)
    have h1 : (pdats m 1 c).arrAt 1 (Pipeline.pin (pcfgs (F := F)) Gen.adm 1).N = bd3 m c (Proc.devRef .tc main_v2) :=
      ((dat1 (ent1 m) c).arrAt_in 1 rfl _).trans ((A_eq1 (ent1 m) c 1).trans (bd3_of_ne m c main_v2 (by decide)).symm)
    have h2 : (pdats m 1 c).arrAt 2 (Pipeline.pin (pcfgs (F := F)) Gen.adm 1).N = bd3 m c (Proc.devRef .tc main_arg2) :=
      ((dat1 (ent1 m) c).arrAt_in 2 rfl _).trans ((A_eq1 (ent1 m) c 2).trans (bd3_of_ne m c main_arg2 (by decide)).symm)
    have h3 : (pdats m 1 c).arrAt 3 (Pipeline.pin (pcfgs (F := F)) Gen.adm 1).N = bd3 m c (Proc.devRef .tc main_v3) := (bd3_v3 m c).symm
    dsimp only [Tfin]
    rw [held_split1, ← rest1_eq]
    iintro ⟨Ha, HO, HY, Hrest⟩
    have hjoin : ((pdats m 1 c).arrays ((pdats m 1 c).arrAt · (Pipeline.pin (pcfgs (F := F)) Gen.adm 1).N) : sProp 𝕄)
        ⊢ iprop((((c : Thread nD τ).loc main_v2) ↦{fullShare} bd3 m c (Proc.devRef .tc main_v2))
            ∗ (((c : Thread nD τ).loc main_arg2) ↦{fullShare} bd3 m c (Proc.devRef .tc main_arg2))
            ∗ (((c : Thread nD τ).loc main_v3) ↦{fullShare} bd3 m c (Proc.devRef .tc main_v3))) :=
      bufs_of_arrays1 c (ent1 m) ((pdats m 1 c).arrAt · (Pipeline.pin (pcfgs (F := F)) Gen.adm 1).N)
        (bd3 m c (Proc.devRef .tc main_v2)) (bd3 m c (Proc.devRef .tc main_arg2)) (bd3 m c (Proc.devRef .tc main_v3)) h0 h1 h2 h3
    ihave Hb := hjoin $$ Ha
    imodintro
    isplitl [Hb Hrest HY]
    · isplitl [Hb Hrest]
      · isplitl [Hb]; · iexact Hb
        iexact Hrest
      iexact HY
    unfold Pipeline.Dat.owesAt Pipeline.owesWithin
    icases HO with ⟨%W, -, HO⟩; iexists W; iexact HO

/-! ## @main as items, and the launch -/

/-- @main's three items in order. -/
abbrev mainSegs : List (Seg (pcfgs (F := F)) Gen.adm (pdats m) () defs₀ 𝒱₀ L lv) :=
  [ .host (hseg0 m), .region (reg0 m), .region (reg1 m) ]

set_option backward.isDefEq.respectTransparency.types false in
/-- THE RUN, at any float values: from any memory with zero counters, every weakly fair execution of @main on the
    cores terminates, nothing faulting, and every final memory holds each unscoped buffer at bd3. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = bd3 m c b) :=
  Pipeline.θ_run_regions_kit (pcfgs (F := F)) Gen.adm (pdats m) () cellOf_inj emb₁ defs₀ 𝒱₀ L lv m ρ main (mainSegs m)
    (fun c Q => by
      rewrite [main_chain c, Seg.run_eq_chain,
        show (mainSegs m).map Seg.prog = [
          StableHlo.seq hostOps0,
          Prog.lift (.customCall (Pipeline.entry 0) ()),
          Prog.lift (.customCall (Pipeline.entry 1) ()) ] from rfl]
      exact .rfl)
    (by simp only [mainSegs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m c) ∗ R c)) (Tₙ := Tfin m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (bd0 m c)
        from Pipeline.unscopedBufs_held c (bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd3 m c b)
    (hfin := fun c s' => by
      iintro ⟨⟨Hh, -⟩, HSI⟩
      unfold StableHlo.held
      imodintro
      iapply (pointsTo_read_all (Pipeline.ucRefs τ sig) (fun b => (((c : Thread nD τ)).1, b)) (bd3 m c) s')
      isplitl [Hh] <;> iassumption)
    (hQ := fun s h c => h c)

/-- An unscoped reference of the core is among those the run's conclusion names. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Spec.lean ====
/-
  The mathematics both programs compute, as functions of the three argument arrays over the extended reals.

  With x : [8,128,512], w : [512,512], b : [512]:
    proj x wt (β, n, o)      = Σ_k x(β, n, k) · wt(k, o)                       -- one row of x against the transposed weights
    pairAdd p b (β, i, j, o) = p(β, i, o) + p(β, j, o) + b(o)                  -- the two projected rows and the bias
    kernelFn x w b           = pairAdd (proj x (wᵀ)) b
    refFn x w b (β, i, j, o) = (Σ_k (x(β, j, k) + x(β, i, k)) · w(o, k)) + b(o)
  The two agree where x and w are real-valued: the product distributes over the sum of two reals, the
  finite sum splits, and addition of extended reals is commutative and associative.
-/
import Idealize.ShloMosaic.PureOps.Ideal
import Idealize.ShloMosaic.Lib.ValueIdx
import Mathlib.Data.EReal.Basic
import Mathlib.Algebra.BigOperators.Group.Finset.Basic
import Mathlib.Tactic.Ring

noncomputable section

open scoped BigOperators

namespace Cert.Spec

open Idealize.ShloMosaic Idealize.ShloMosaic.ValueIdx

abbrev SX : Shape := ⟨3, ![8, 128, 512]⟩
abbrev SW : Shape := ⟨2, ![512, 512]⟩
abbrev SB : Shape := ⟨1, ![512]⟩
abbrev SO : Shape := ⟨4, ![8, 128, 128, 512]⟩

/-- The weights transposed: wᵀ(k, o) = w(o, k). -/
def wT (w : SW.Idx → EReal) : SW.Idx → EReal := fun j => w (ix2 (j 1) (j 0))

/-- Every row of x against the columns of wt: Σ_k x(β, n, k) · wt(k, o). -/
def proj (x : SX.Idx → EReal) (wt : SW.Idx → EReal) : SX.Idx → EReal :=
  fun i => ∑ k : Fin 512, x (ix3 (i 0) (i 1) k) * wt (ix2 k (i 2))

/-- Row i plus row j of the same batch entry, plus the bias. -/
def pairAdd (p : SX.Idx → EReal) (b : SB.Idx → EReal) : SO.Idx → EReal :=
  fun i => p (ix3 (i 0) (i 1) (i 3)) + p (ix3 (i 0) (i 2) (i 3)) + b (ix1 (i 3))

/-- What the kernel's two regions compute. -/
def kernelFn (x : SX.Idx → EReal) (w : SW.Idx → EReal) (b : SB.Idx → EReal) : SO.Idx → EReal :=
  pairAdd (proj x (wT w)) b

/-- What the reference computes: the pair sum first, then one contraction against w's second axis, then the bias. -/
def refFn (x : SX.Idx → EReal) (w : SW.Idx → EReal) (b : SB.Idx → EReal) : SO.Idx → EReal :=
  fun i => (∑ k : Fin 512, (x (ix3 (i 0) (i 2) k) + x (ix3 (i 0) (i 1) k)) * w (ix2 (i 3) k)) + b (ix1 (i 3))

/-- The coercion of a finite sum of reals is the sum of the coercions. -/
private theorem coe_real_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Linearity of the contraction over real-valued x and w: the projection of a sum of two rows is the sum of the projections. -/
theorem refFn_eq_kernelFn (x : SX.Idx → EReal) (w : SW.Idx → EReal) (b : SB.Idx → EReal)
    (hx : ∀ i, ∃ r : ℝ, x i = (r : EReal)) (hw : ∀ i, ∃ r : ℝ, w i = (r : EReal)) :
    refFn x w b = kernelFn x w b := by
  choose xr hxr using hx
  choose wr hwr using hw
  funext i
  -- both sides at the output index (β, i, j, o), with the transposed weights read back as w(o, k)
  show (∑ k : Fin 512, (x (ix3 (i 0) (i 2) k) + x (ix3 (i 0) (i 1) k)) * w (ix2 (i 3) k)) + b (ix1 (i 3))
     = (∑ k : Fin 512, x (ix3 (i 0) (i 1) k) * w (ix2 (i 3) k))
        + (∑ k : Fin 512, x (ix3 (i 0) (i 2) k) * w (ix2 (i 3) k)) + b (ix1 (i 3))
  -- the bias is an arbitrary extended real: it stays outside, only the two contractions are compared
  congr 1
  -- over the reals: distribute the product over the pair sum and split the finite sum
  simp only [hxr, hwr, ← EReal.coe_mul, ← EReal.coe_add, ← coe_real_sum]
  congr 1
  rw [← Finset.sum_add_distrib]
  refine Finset.sum_congr rfl fun k _ => ?_
  ring

end Cert.Spec

end
-- ==== Proof.KI.Value0.lean ====
/-
  The first region's output array after all eight points, over the extended reals.

  At point t the output window is batch entry t of the [8,128,512] result, the first input window is batch entry t
  of x, and the second input window is the whole [512,512] matrix wt. The body's one store is the matrix product
  of the two blocks, so entry (n, o) of what point t writes back is Σ_k x(t, n, k) · wt(k, o). The eight blocks
  tile the array along its first axis — index (β, n, o) lies in the block of point β and in no other —, so the
  array ends as the projection of every row of x onto the columns of wt.
-/
import proofs.«180656_j86199993631321_1_alg».proof.Proof.KI.Body0
import proofs.«180656_j86199993631321_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The block product at an index -/

/-- The left operand of the product is read at the output's row: axis 0 of [128,512] is not contracted. -/
theorem lhs_proj_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
/-- and along its axis 1 at the contraction index. -/
theorem lhs_proj_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
/-- The right operand is read along its axis 0 at the contraction index -/
theorem rhs_proj_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
/-- and at the output's column: axis 1 of [512,512] is not contracted. -/
theorem rhs_proj_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

/-- A [128,512] by [512,512] product into the zero accumulator, at entry (p, q): Σ_k a(p, k) · b(k, q). -/
theorem matmul_zero_apply (a : FVec Ideal S128x512 .bf16) (b : FVec Ideal S512x512 .bf16) (p : Fin 128) (q : Fin 512) :
    matmul dot_S128x512_S512x512_S128x512_1_0_0_1_n_n none a b (constant (F := Ideal) S128x512 .f32 0x00000000#32) (ix2 p q)
      = ∑ k : Fin 512, a (ix2 p k) * b (ix2 k q) := by
  simp only [matmul]
  rw [Ideal.matmul_constant_zero_apply, ← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 p q) ((contrEquiv1 dot_S128x512_S512x512_S128x512_1_0_0_1_n_n 512 rfl rfl).symm k) = ix2 p k := funext fun d => Fin.ext (by
    match d with
    | ⟨0, _⟩ => exact lhs_proj_0 _ _
    | ⟨1, _⟩ => exact (lhs_proj_1 _ _).trans hk)
  have er : dot_S128x512_S512x512_S128x512_1_0_0_1_n_n.rhsIdx (ix2 p q) ((contrEquiv1 dot_S128x512_S512x512_S128x512_1_0_0_1_n_n 512 rfl rfl).symm k) = ix2 k q := funext fun d => Fin.ext (by
    match d with
    | ⟨0, _⟩ => exact (rhs_proj_0 _ _).trans hk
    | ⟨1, _⟩ => exact rhs_proj_1 _ _)
  rw [el, er]

/-- The body's payload at entry (u, p, q) of its [1,128,512] result: row p of the x block against column q of wt. -/
theorem pay_apply (x0 : Vec Ideal S1x128x512 .f32) (x1 : Vec Ideal S512x512 .bf16) (u : Fin 1) (p : Fin 128) (q : Fin 512) :
    k0_pay1 (F := Ideal) x0 x1 (ix3 u p q) = ∑ k : Fin 512, x0 (ix3 (0 : Fin 1) p k) * x1 (ix2 k q) := by
  unfold k0_pay1
  refine (shapeCast_ab_1ab_apply _ shapeCasts_S128x512_S1x128x512 u p q).trans ?_
  refine (matmul_zero_apply _ _ p q).trans ?_
  refine Finset.sum_congr rfl fun k _ => ?_
  rw [shapeCast_self]
  refine congrArg (· * x1 (ix2 k q)) ?_
  exact shapeCast_1ab_ab_apply x0 shapeCasts_S1x128x512_S128x512 p k

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's buffer, at entry (u, p, q). -/
theorem proj0Block_apply (x0 : Vec Ideal S1x128x512 .f32) (x1 : Vec Ideal S512x512 .bf16) (u : Fin 1) (p : Fin 128) (q : Fin 512) :
    proj0Block (F := Ideal) x0 x1 (ix3 u p q) = ∑ k : Fin 512, x0 (ix3 (0 : Fin 1) p k) * x1 (ix2 k q) := by
  unfold proj0Block
  rw [View.canon_unit_zero hz3]
  simp only [View.ld_unit_zero (S := S1x128x512) hz3, View.ld_unit_zero (S := S512x512) hz2]
  exact pay_apply x0 x1 u p q

/-! ## Where each window's block sits in its array -/

variable (V : (c : Dev nD) → (b : Ref sig .tc) → Buf (Elt Ideal) ((c : Thread nD τ).loc b))

/-- The index maps over the grid: at point t the x window and the output window are at block
    (t, 0, 0), the wt window at block (0, 0). -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Entry (u, p, k) of the x block at point t is x(t, p, k). -/
theorem xblk_apply (c : Dev nD) (t : Fin cfg0.N) (u : Fin 1) (p : Fin 128) (k : Fin 512) (i : S8x128x512.Idx)
    (h0 : (i 0).val = t.val) (h1 : (i 1).val = p.val) (h2 : (i 2).val = k.val) :
    (iblk0 V c 0 t : Vec Ideal S1x128x512 .f32) (ix3 u p k) = (V c main_arg0 : S8x128x512.Idx → EReal) i := by
  obtain ⟨e0, e1, e2, -⟩ := idx_facts0 t
  unfold iblk0
  rw [View.read_apply]
  show (V c main_arg0 : S8x128x512.Idx → EReal) _ = _
  congr 1
  funext a
  apply Fin.ext
  match a with
  | ⟨0, _⟩ => show win0_0.index t (0 : Fin 3) * 1 + 1 * u.val = (i 0).val; rw [e0, h0]; omega
  | ⟨1, _⟩ => show win0_0.index t (1 : Fin 3) * 128 + 1 * p.val = (i 1).val; rw [e1, h1]; omega
  | ⟨2, _⟩ => show win0_0.index t (2 : Fin 3) * 512 + 1 * k.val = (i 2).val; rw [e2, h2]; omega

/-- Entry (k, q) of the wt block at any point is wt(k, q): the block is the whole matrix. -/
theorem wblk_apply (c : Dev nD) (t : Fin cfg0.N) (k : Fin 512) (q : Fin 512) (i : S512x512.Idx)
    (h0 : (i 0).val = k.val) (h1 : (i 1).val = q.val) :
    (iblk0 V c 1 t : Vec Ideal S512x512 .bf16) (ix2 k q) = (V c main_v1 : S512x512.Idx → EReal) i := by
  obtain ⟨-, -, -, e0, e1, -⟩ := idx_facts0 t
  unfold iblk0
  rw [View.read_apply]
  show (V c main_v1 : S512x512.Idx → EReal) _ = _
  congr 1
  funext a
  apply Fin.ext
  match a with
  | ⟨0, _⟩ => show win0_1.index t (0 : Fin 2) * 512 + 1 * k.val = (i 0).val; rw [e0, h0]; omega
  | ⟨1, _⟩ => show win0_1.index t (1 : Fin 2) * 512 + 1 * q.val = (i 1).val; rw [e1, h1]; omega

/-- Entry (u, p, q) of the output's block at point t sits at (t, p, q) of the array. -/
theorem oblk_emb (t : Fin cfg0.N) (u : Fin 1) (p : Fin 128) (q : Fin 512) :
    ((((cfg0.win 2).blk t).view.emb (ix3 u p q)) (0 : Fin 3)).val = t.val
    ∧ ((((cfg0.win 2).blk t).view.emb (ix3 u p q)) (1 : Fin 3)).val = p.val
    ∧ ((((cfg0.win 2).blk t).view.emb (ix3 u p q)) (2 : Fin 3)).val = q.val := by
  obtain ⟨-, -, -, -, -, e0, e1, e2⟩ := idx_facts0 t
  refine ⟨?_, ?_, ?_⟩
  · show win0_2.index t (0 : Fin 3) * 1 + 1 * u.val = t.val; rw [e0]; omega
  · show win0_2.index t (1 : Fin 3) * 128 + 1 * p.val = p.val; rw [e1]; omega
  · show win0_2.index t (2 : Fin 3) * 512 + 1 * q.val = q.val; rw [e2]; omega

/-! ## What each point writes back, and the array after the last point -/

/-- What point t writes back is block t of the projection of x onto wt's columns. -/
theorem flushed0_2_eq (c : Dev nD) (t : Fin cfg0.N) :
    (dat0 V c).flushed 2 t
      = ((cfg0.win 2).blk t).view.read (Elt Ideal) (Cert.Spec.proj (V c main_arg0) (V c main_v1)) := by
  show (cfg0.win 2).cut (grid0.coords t) ((dat0 V c).after 2 t) = _
  rw [after0_2]
  funext j
  obtain ⟨u, p, q, rfl⟩ : ∃ (u : Fin 1) (p : Fin 128) (q : Fin 512), j = ix3 u p q := ⟨j 0, j 1, j 2, eq_ix3 j⟩
  show proj0Block (iblk0 V c 0 t) (iblk0 V c 1 t) (ix3 u p q)
    = Cert.Spec.proj (V c main_arg0) (V c main_v1) (((cfg0.win 2).blk t).view.emb (ix3 u p q))
  refine (proj0Block_apply (iblk0 V c 0 t) (iblk0 V c 1 t) u p q).trans ?_
  obtain ⟨o0, o1, o2⟩ := oblk_emb t u p q
  unfold Cert.Spec.proj
  refine Finset.sum_congr rfl fun k _ => ?_
  refine congrArg₂ (· * ·) ?_ ?_
  · exact xblk_apply V c t 0 p k _ o0 o1 rfl
  · exact wblk_apply V c t k q _ rfl o2

/-- An index of the array is in point t's block iff each coordinate is in the block's range on its axis. -/
theorem mem_blk0_2 (t : Fin cfg0.N) (i : S8x128x512.Idx) :
    i ∈ ((cfg0.win 2).blk t).view.set
      ↔ ∀ a : Fin 3, win0_2.index t a * S1x128x512.size a ≤ (i a).val ∧ (i a).val < win0_2.index t a * S1x128x512.size a + S1x128x512.size a := by
  show i ∈ ((View.whole main_v2).slice (win0_2.rect t)).set ↔ _
  rw [View.set_slice_whole, Rect.mem_set_unit]
  exact Iff.rfl

/-- Index (β, n, o) lies in the block of point β. -/
theorem cover0_2 (i : S8x128x512.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 512 := (i 2).isLt
  have hN : cfg0.N = 8 := N_0
  refine ⟨⟨(i 0).val, by rw [hN]; exact hi0⟩, flush0_2 _, ?_⟩
  obtain ⟨-, -, -, -, -, e0, e1, e2⟩ := idx_facts0 ⟨(i 0).val, by rw [hN]; exact hi0⟩
  rw [mem_blk0_2]
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 128 ≤ (i 1).val ∧ (i 1).val < win0_2.index _ (1 : Fin 3) * 128 + 128; rw [e1]; omega
  | ⟨2, _⟩ => show win0_2.index _ (2 : Fin 3) * 512 ≤ (i 2).val ∧ (i 2).val < win0_2.index _ (2 : Fin 3) * 512 + 512; rw [e2]; omega

/-- The output array after the last point: every row of x against the columns of wt. -/
theorem arr0_2 (c : Dev nD) :
    (dat0 (F := Ideal) V c).arrAt 2 cfg0.N = Cert.Spec.proj (V c main_arg0) (V c main_v1) :=
  (dat0 V c).arrAt_eq_of_cover 2 (Cert.Spec.proj (V c main_arg0) (V c main_v1)) (fun t _ => flushed0_2_eq V c t) cover0_2

end Cert.KernelIdeal.Hand

end
-- ==== Proof.KI.Value1.lean ====
/-
  The second region's result array, at the ideal instance (a float is an extended real, every operation exact).

  The region runs 32 points (β, jt) on a grid 8 x 4. At a point the body holds the [1,128,512] block β of the
  projected rows p, the [1,32,512] tile (β, jt) of the same array, and the bias b, and stores the [1,128,32,512]
  block whose entry (0, i, jj, o) is p(β, i, o) + p(β, 32·jt + jj, o) + b(o): the row block viewed [128,1,512] and
  the tile viewed [1,32,512] are both spread to [128,32,512] and added, then the bias viewed [1,1,512] is spread
  and added. The output's block at the point is (β, 0, jt, 0), so its entry (0, i, jj, o) lands on the array index
  (β, i, 32·jt + jj, o), and the three input blocks are read exactly where that index says. Every index
  (β, i, j, o) of the [8,128,128,512] array lies in the block of the point (β, j / 32), and every point writes its
  block back, so after the last point the array is the pair sum p(β,i,o) + p(β,j,o) + b(o) at every index.
-/
import proofs.«180656_j86199993631321_1_alg».proof.Proof.KI.Body1
import proofs.«180656_j86199993631321_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Row i of the block of projected rows, spread over the tile axis: the [1,128,512] block viewed [128,1,512] and
    broadcast to [128,32,512] reads (0, i, o) at (i, jj, o). -/
theorem rowSpread_apply (x0 : Vec Ideal S1x128x512 .f32) (i : Fin 128) (jj : Fin 32) (o : Fin 512) :
    broadcastTo S128x32x512
        (shapeCast S128x1x512 (shapeCast S128x512 x0 shapeCasts_S1x128x512_S128x512) shapeCasts_S128x512_S128x1x512)
        broadcasts_S128x1x512_S128x32x512 (ix3 i jj o) = x0 (ix3 (0 : Fin 1) i o) := by
  refine (broadcastTo_apply _ _ (ix3 i jj o) (ix3 i (0 : Fin 1) o) fun a => ?_).trans ?_
  · match a with
    | ⟨0, _⟩ => rfl
    | ⟨1, _⟩ => rfl
    | ⟨2, _⟩ => rfl
  refine (shapeCast_apply _ _ (ix3 i (0 : Fin 1) o) (ix2 i o) ?_).trans ?_
  · rw [Shape.rowMajor_val_three, Shape.rowMajor_val_two]
    show i.val * 512 + o.val = (i.val * 1 + 0) * 512 + o.val
    omega
  exact shapeCast_1ab_ab_apply _ _ i o

/-- Row jj of the tile, spread over the row axis: the [1,32,512] tile broadcast to [128,32,512] reads (0, jj, o) at (i, jj, o). -/
theorem tileSpread_apply (x1 : Vec Ideal S1x32x512 .f32) (i : Fin 128) (jj : Fin 32) (o : Fin 512) :
    broadcastTo S128x32x512
        (shapeCast S1x32x512 (shapeCast S32x512 x1 shapeCasts_S1x32x512_S32x512) shapeCasts_S32x512_S1x32x512)
        broadcasts_S1x32x512_S128x32x512 (ix3 i jj o) = x1 (ix3 (0 : Fin 1) jj o) := by
  refine (broadcastTo_apply _ _ (ix3 i jj o) (ix3 (0 : Fin 1) jj o) fun a => ?_).trans ?_
  · match a with
    | ⟨0, _⟩ => rfl
    | ⟨1, _⟩ => rfl
    | ⟨2, _⟩ => rfl
  refine (shapeCast_ab_1ab_apply _ _ (0 : Fin 1) jj o).trans ?_
  exact shapeCast_1ab_ab_apply _ _ jj o

/-- The bias spread over both leading axes: [512] viewed [1,1,512] and broadcast to [128,32,512] reads o at (i, jj, o). -/
theorem biasSpread_apply (x2 : Vec Ideal S512 .f32) (i : Fin 128) (jj : Fin 32) (o : Fin 512) :
    broadcastTo S128x32x512 (shapeCast S1x1x512 x2 shapeCasts_S512_S1x1x512) broadcasts_S1x1x512_S128x32x512 (ix3 i jj o)
      = x2 (ix1 o) := by
  refine (broadcastTo_apply _ _ (ix3 i jj o) (ix3 (0 : Fin 1) (0 : Fin 1) o) fun a => ?_).trans ?_
  · match a with
    | ⟨0, _⟩ => rfl
    | ⟨1, _⟩ => rfl
    | ⟨2, _⟩ => rfl
  refine shapeCast_apply _ _ (ix3 (0 : Fin 1) (0 : Fin 1) o) (ix1 o) ?_
  rw [Shape.rowMajor_val_three, Shape.rowMajor_val_one]
  show o.val = (0 * 1 + 0) * 512 + o.val
  omega

/-- The body's payload at block coordinates (0, i, jj, o): row i of the first block plus row jj of the tile plus the bias at o. -/
theorem pairAddPayload_apply (x0 : Vec Ideal S1x128x512 .f32) (x1 : Vec Ideal S1x32x512 .f32) (x2 : Vec Ideal S512 .f32)
    (i : Fin 128) (jj : Fin 32) (o : Fin 512) :
    k1_pay1 x0 x1 x2 (ix4 (0 : Fin 1) i jj o) = x0 (ix3 (0 : Fin 1) i o) + x1 (ix3 (0 : Fin 1) jj o) + x2 (ix1 o) := by
  unfold k1_pay1
  refine (shapeCast_abc_1abc_apply _ _ (0 : Fin 1) i jj o).trans ?_
  exact congrArg₂ (· + ·) (congrArg₂ (· + ·) (rowSpread_apply x0 i jj o) (tileSpread_apply x1 i jj o)) (biasSpread_apply x2 i jj o)

variable (V : (c : Dev nD) → (b : Ref sig .tc) → Buf (Elt Ideal) ((c : Thread nD τ).loc b))

private theorem zero4 : (![0, 0, 0, 0] : Fin 4 → Nat) = fun _ => 0 := funext fun a => by fin_cases a <;> rfl
private theorem zero3 : (![0, 0, 0] : Fin 3 → Nat) = fun _ => 0 := funext fun a => by fin_cases a <;> rfl
private theorem zero1 : (![0] : Fin 1 → Nat) = fun _ => 0 := funext fun a => by fin_cases a <;> rfl

/-- What the body leaves in the output block, at block coordinates y = (0, i, jj, o). -/
theorem pairAddBlock_apply (x0 : Vec Ideal S1x128x512 .f32) (x1 : Vec Ideal S1x32x512 .f32) (x2 : Vec Ideal S512 .f32)
    (y : S1x128x32x512.Idx) :
    pairAddBlock x0 x1 x2 y = x0 (ix3 (0 : Fin 1) (y 1) (y 3)) + x1 (ix3 (0 : Fin 1) (y 2) (y 3)) + x2 (ix1 (y 3)) := by
  have hy : y = ix4 (0 : Fin 1) (y 1) (y 2) (y 3) := by
    funext a
    match a with
    | ⟨0, _⟩ => exact Fin.ext (Nat.lt_one_iff.mp (y 0).isLt)
    | ⟨1, _⟩ => rfl
    | ⟨2, _⟩ => rfl
    | ⟨3, _⟩ => rfl
  unfold pairAddBlock
  rw [View.canon_unit_zero zero4]
  simp only [View.ld_unit_zero (S := S1x128x512) zero3, View.ld_unit_zero (S := S1x32x512) zero3, View.ld_unit_zero (S := S512) zero1]
  exact (congrArg (k1_pay1 x0 x1 x2) hy).trans (pairAddPayload_apply x0 x1 x2 (y 1) (y 2) (y 3))

/-- The printed index maps over the 32 points: the row block and the tile sit in the output block's batch entry, the
    tile at the output block's tile index; every other block index is 0. -/
theorem blockIndex1 : ∀ t : Fin cfg1.N,
    win1_0.index t (0 : Fin 3) = win1_3.index t (0 : Fin 4) ∧ win1_0.index t (1 : Fin 3) = 0 ∧ win1_0.index t (2 : Fin 3) = 0
    ∧ win1_1.index t (0 : Fin 3) = win1_3.index t (0 : Fin 4) ∧ win1_1.index t (1 : Fin 3) = win1_3.index t (2 : Fin 4)
    ∧ win1_1.index t (2 : Fin 3) = 0
    ∧ win1_2.index t (0 : Fin 1) = 0
    ∧ win1_3.index t (1 : Fin 4) = 0 ∧ win1_3.index t (3 : Fin 4) = 0 :=
  (by decide +kernel : ∀ t : Fin grid1.N, _)

/-- The array the output ends holding, as a function of the two arrays the region reads. -/
abbrev pairSum (c : Dev nD) : S8x128x128x512.Idx → EReal :=
  Cert.Spec.pairAdd (V c main_v2) (V c main_arg2)

/-- At point t the body's block, at block coordinates y, is the pair sum at the array index the output's rectangle
    sends y to: each input block is read where that rectangle says. -/
theorem pairAddBlock_at (c : Dev nD) (t : Fin cfg1.N) (y : S1x128x32x512.Idx) :
    pairAddBlock (iblk1 V c 0 t) (iblk1 V c 1 t) (iblk1 V c 2 t) y = pairSum V c (((cfg1.win 3).blk t).view.emb y) := by
  refine (pairAddBlock_apply (iblk1 V c 0 t) (iblk1 V c 1 t) (iblk1 V c 2 t) y).trans ?_
  obtain ⟨e00, e01, e02, e10, e11, e12, e20, e31, e33⟩ := blockIndex1 t
  have hy0 : (y 0).val < 1 := (y 0).isLt
  have hy1 : (y 1).val < 128 := (y 1).isLt
  have hy2 : (y 2).val < 32 := (y 2).isLt
  have hy3 : (y 3).val < 512 := (y 3).isLt
  unfold pairSum Cert.Spec.pairAdd
  refine congrArg₂ (· + ·) (congrArg₂ (· + ·) ?_ ?_) ?_
  · show V c main_v2 (((cfg1.win 0).blk t).view.emb (ix3 (0 : Fin 1) (y 1) (y 3))) = V c main_v2 _
    refine congrArg (V c main_v2) (funext fun a => Fin.ext ?_)
    match a with
    | ⟨0, _⟩ => show win1_0.index t (0 : Fin 3) * 1 + 1 * 0 = win1_3.index t (0 : Fin 4) * 1 + 1 * (y 0).val; omega
    | ⟨1, _⟩ => show win1_0.index t (1 : Fin 3) * 128 + 1 * (y 1).val = win1_3.index t (1 : Fin 4) * 128 + 1 * (y 1).val; omega
    | ⟨2, _⟩ => show win1_0.index t (2 : Fin 3) * 512 + 1 * (y 3).val = win1_3.index t (3 : Fin 4) * 512 + 1 * (y 3).val; omega
  · show V c main_v2 (((cfg1.win 1).blk t).view.emb (ix3 (0 : Fin 1) (y 2) (y 3))) = V c main_v2 _
    refine congrArg (V c main_v2) (funext fun a => Fin.ext ?_)
    match a with
    | ⟨0, _⟩ => show win1_1.index t (0 : Fin 3) * 1 + 1 * 0 = win1_3.index t (0 : Fin 4) * 1 + 1 * (y 0).val; omega
    | ⟨1, _⟩ => show win1_1.index t (1 : Fin 3) * 32 + 1 * (y 2).val = win1_3.index t (2 : Fin 4) * 32 + 1 * (y 2).val; omega
    | ⟨2, _⟩ => show win1_1.index t (2 : Fin 3) * 512 + 1 * (y 3).val = win1_3.index t (3 : Fin 4) * 512 + 1 * (y 3).val; omega
  · show V c main_arg2 (((cfg1.win 2).blk t).view.emb (ix1 (y 3))) = V c main_arg2 _
    refine congrArg (V c main_arg2) (funext fun a => Fin.ext ?_)
    match a with
    | ⟨0, _⟩ => show win1_2.index t (0 : Fin 1) * 512 + 1 * (y 3).val = win1_3.index t (3 : Fin 4) * 512 + 1 * (y 3).val; omega

/-- What point t writes back is block t of the pair sum. -/
theorem flushed1_3_eq (c : Dev nD) (t : Fin cfg1.N) :
    (dat1 (F := Ideal) V c).flushed 3 t = ((cfg1.win 3).blk t).view.read (Elt Ideal) (pairSum V c) := by
  show (cfg1.win 3).cut (grid1.coords t) ((dat1 (F := Ideal) V c).after 3 t) = _
  rw [after1_3]
  funext j
  exact pairAddBlock_at V c t j

/-- An index of the output array is in point t's block iff each coordinate is in the block's range on its axis. -/
theorem mem_outBlock1 (t : Fin cfg1.N) (i : S8x128x128x512.Idx) :
    i ∈ ((cfg1.win 3).blk t).view.set ↔ ∀ a : Fin 4, win1_3.index t a * S1x128x32x512.size a ≤ (i a).val
      ∧ (i a).val < win1_3.index t a * S1x128x32x512.size a + S1x128x32x512.size a := by
  show i ∈ ((View.whole main_v3).slice (win1_3.rect t)).set ↔ _
  rw [View.set_slice_whole, Rect.mem_set_unit]
  exact Iff.rfl

/-- Every (batch entry, tile) pair is some point's output block index. -/
theorem outBlock_onto1 : ∀ (q0 : Fin 8) (q2 : Fin 4), ∃ t : Fin cfg1.N, win1_3.index t = ![q0.val, 0, q2.val, 0] :=
  (by decide +kernel : ∀ (q0 : Fin 8) (q2 : Fin 4), ∃ t : Fin grid1.N, win1_3.index t = ![q0.val, 0, q2.val, 0])

/-- The output's blocks tile the array: the index (β, i, j, o) is in the block of the point with batch entry β and tile j / 32. -/
theorem outCover1 (i : S8x128x128x512.Idx) :
    ∃ t : Fin cfg1.N, (cfg1.win 3).flush t = true ∧ i ∈ ((cfg1.win 3).blk t).view.set := by
  have h0 : (i 0).val < 8 := (i 0).isLt
  have h1 : (i 1).val < 128 := (i 1).isLt
  have h2 : (i 2).val < 128 := (i 2).isLt
  have h3 : (i 3).val < 512 := (i 3).isLt
  obtain ⟨t, ht⟩ := outBlock_onto1 ⟨(i 0).val, h0⟩ ⟨(i 2).val / 32, by omega⟩
  have q0 : win1_3.index t (0 : Fin 4) = (i 0).val := congrFun ht 0
  have q1 : win1_3.index t (1 : Fin 4) = 0 := congrFun ht 1
  have q2 : win1_3.index t (2 : Fin 4) = (i 2).val / 32 := congrFun ht 2
  have q3 : win1_3.index t (3 : Fin 4) = 0 := congrFun ht 3
  refine ⟨t, flush1_3 t, ?_⟩
  rw [mem_outBlock1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 128 ≤ (i 1).val ∧ (i 1).val < win1_3.index t (1 : Fin 4) * 128 + 128; omega
  | ⟨2, _⟩ => show win1_3.index t (2 : Fin 4) * 32 ≤ (i 2).val ∧ (i 2).val < win1_3.index t (2 : Fin 4) * 32 + 32; omega
  | ⟨3, _⟩ => show win1_3.index t (3 : Fin 4) * 512 ≤ (i 3).val ∧ (i 3).val < win1_3.index t (3 : Fin 4) * 512 + 512; omega

/-- After the 32 points the output array holds the pair sum of the projected rows and the bias as the region found them. -/
theorem arr1_3 (c : Dev nD) :
    (dat1 (F := Ideal) V c).arrAt 3 cfg1.N = Cert.Spec.pairAdd (V c main_v2) (V c main_arg2) :=
  (dat1 (F := Ideal) V c).arrAt_eq_of_cover 3 (pairSum V c) (fun t _ => flushed1_3_eq V c t) outCover1

end Cert.KernelIdeal.Hand

end
-- ==== Proof.KI.ValueRun.lean ====
/-
  The kernel program's result, at the ideal instance, as one function of the three argument arrays.

  Reading the boundary contents back to the launch memory m: the result array after the second region is
  pairAdd of the projected array and the bias; the projected array after the first region is proj of x and the
  weights as the host operations left them; the host operations transpose w and change its format, which at the
  ideal instance is the identity. So the result is kernelFn x w b.
-/
import proofs.«180656_j86199993631321_1_alg».proof.Proof.KI.Run
import proofs.«180656_j86199993631321_1_alg».proof.Proof.KI.Value0
import proofs.«180656_j86199993631321_1_alg».proof.Proof.KI.Value1
import proofs.«180656_j86199993631321_1_alg».proof.Proof.Spec
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- No host operation writes x: the first region finds it as launched. -/
theorem ent0_arg0 (c : Dev nD) : ent0 m c main_arg0 = m ((c : Thread nD τ).loc main_arg0) :=
  (Gen.V1_of m c main_arg0 (by decide)).trans rfl

/-- The host operations leave the weights transposed (the change of format is the identity on extended reals). -/
theorem ent0_v1 (c : Dev nD) : ent0 m c main_v1 = Cert.Spec.wT (m ((c : Thread nD τ).loc main_arg1)) := by
  show StableHlo.after hostOps0 (fun b => m (c, b)) (Proc.devRef .tc main_v1) = _
  after_results
  funext j
  obtain ⟨p, q, rfl⟩ : ∃ (p : Fin 512) (q : Fin 512), j = ix2 p q := ⟨j 0, j 1, eq_ix2 j⟩
  -- the change of format reads through; the transposed array at (p, q) is w at (q, p)
  show transpose S512x512 [1, 0] (m ((c : Thread nD τ).loc main_arg1)) Facts₀.transposes_S512x512_S512x512_1_0 (ix2 p q)
      = (m ((c : Thread nD τ).loc main_arg1)) (ix2 q p)
  exact transpose_ix2_apply _ _ p q

/-- The second region finds the bias as launched, and the projected array at what the first region left. -/
theorem ent1_arg2 (c : Dev nD) : ent1 m c main_arg2 = m ((c : Thread nD τ).loc main_arg2) :=
  (bd2_of_ne m c main_arg2 (by decide)).trans ((Gen.V1_of m c main_arg2 (by decide)).trans rfl)

theorem ent1_v2 (c : Dev nD) :
    ent1 m c main_v2 = Cert.Spec.proj (m ((c : Thread nD τ).loc main_arg0)) (Cert.Spec.wT (m ((c : Thread nD τ).loc main_arg1))) := by
  rw [show ent1 m c main_v2 = (dat0 (ent0 m) c).arrAt 2 cfg0.N from bd2_v2 m c, arr0_2, ent0_arg0, ent0_v1]

/-- THE KERNEL'S VALUE: the result array at the end of the run. -/
theorem result_eq (c : Dev nD) :
    bd3 m c (Proc.devRef .tc main_v3)
      = Cert.Spec.kernelFn (m ((c : Thread nD τ).loc main_arg0)) (m ((c : Thread nD τ).loc main_arg1)) (m ((c : Thread nD τ).loc main_arg2)) := by
  rw [bd3_v3, arr1_3, ent1_v2, ent1_arg2]
  rfl

end Cert.KernelIdeal.Hand

end
-- ==== Proof.RefSide.lean ====
/-
  The reference program read one host operation at a time: what each stage of its run holds at an index.

  The last stage, as a function of the three argument arrays x : [8,128,512], w : [512,512], b : [512], at the
  output index (β, i, j, o):
    the two broadcasts of x read x(β, j, k) (x repeated along axis 1) and x(β, i, k) (x repeated along axis 2);
    their elementwise sum is x(β, j, k) + x(β, i, k);
    the contraction of that sum's last axis with w's second axis is Σ_k (x(β, j, k) + x(β, i, k)) · w(o, k);
    the bias broadcast reads b(o) and is added last.
  That is Cert.Spec.refFn x w b at (β, i, j, o).
-/
import proofs.«180656_j86199993631321_1_alg».proof.Proof.Gen.ReferenceIdeal.Run
import proofs.«180656_j86199993631321_1_alg».proof.Proof.Gen.ReferenceIdeal.Read
import proofs.«180656_j86199993631321_1_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result, as a function of its three arguments over the extended reals, is
    (β, i, j, o) ↦ (Σ_k (x(β, j, k) + x(β, i, k)) · w(o, k)) + b(o). -/
theorem ref_eq (x : (⟨S8x128x512, .f32⟩ : BufTy).Contents (Elt Ideal))
    (w : (⟨S512x512, .f32⟩ : BufTy).Contents (Elt Ideal))
    (b : (⟨S512, .f32⟩ : BufTy).Contents (Elt Ideal)) :
    Cert.ReferenceIdeal.Read.val_main_v8 (F := Ideal) x w b = Cert.Spec.refFn x w b := by
  funext i
  -- where each composed chain of layout operations reads its argument, by coordinates:
  -- x repeated along axis 1, under the contraction's left index (β, i, j, k), is read at (β, j, k)
  have e2 : ∀ k : Fin 512, idx_main_v0 (idx_main_v2 (lidx_main_v5 i k)) = ix3 (i 0) (i 2) k := fun k =>
    funext fun a => Fin.ext (by match a with | ⟨0, _⟩ => rfl | ⟨1, _⟩ => rfl | ⟨2, _⟩ => rfl)
  -- x repeated along axis 2 is read at (β, i, k)
  have e3 : ∀ k : Fin 512, idx_main_v1 (idx_main_v3 (lidx_main_v5 i k)) = ix3 (i 0) (i 1) k := fun k =>
    funext fun a => Fin.ext (by match a with | ⟨0, _⟩ => rfl | ⟨1, _⟩ => rfl | ⟨2, _⟩ => rfl)
  -- the contraction's right index is (o, k)
  have er : ∀ k : Fin 512, ridx_main_v5 i k = ix2 (i 3) k := fun k =>
    funext fun a => Fin.ext (by match a with | ⟨0, _⟩ => rfl | ⟨1, _⟩ => rfl)
  -- the bias, repeated along the three leading axes, is read at o
  have eb : idx_main_v6 (idx_main_v7 i) = ix1 (i 3) :=
    funext fun a => Fin.ext (by match a with | ⟨0, _⟩ => rfl)
  -- the last stage at (β, i, j, o): the contraction plus the bias, each read at an index
  rw [val_main_v8_apply, val_main_v5_apply, val_main_v7_apply, val_main_v6_apply]
  -- under the sum: the pair sum of the two broadcasts, each read back to x
  simp only [val_main_v4_apply, val_main_v2_apply, val_main_v3_apply, val_main_v0_apply, val_main_v1_apply,
    e2, e3, er, eb]
  -- over the extended reals the float sum is +, and this is the specification's expression
  rfl

end Cert.ReferenceIdeal.RefValue

end
-- ==== Proof.Finite.lean ====
/-
  The precondition read back: every entry of x and of w is a real number.

  The printed predicate is the conjunction of three tests, one per argument array: "every entry a of the array has
  |a| < +∞", each a reduction by "and" over all axes of the elementwise comparison of |a| with the constant whose
  bit pattern 0x7F800000 is +∞. Over the extended reals |a| is max a (-a); it is +∞ exactly at a = +∞ and at
  a = -∞, so the strict inequality leaves the reals. Only the tests on x and w are opened; the test on the bias is
  split off and not used.
-/
import proofs.«180656_j86199993631321_1_alg».proof.Pre_finite_inputs
import proofs.«180656_j86199993631321_1_alg».proof.Proof.Gen.Pre_finite_inputs
import Idealize.ShloMosaic.Lib.ReduceAll
import Idealize.ShloMosaic.Lib.ValueIdx
import Idealize.ShloMosaic.PureOps.Ideal
import Mathlib.Data.EReal.Basic

noncomputable section

namespace Cert.FiniteInputs

open Idealize.ShloMosaic Idealize.ShloMosaic.ValueIdx Cert.Pre_finite_inputs

/-- The scalar shape has one index (used where a reduction over all axes is read back at every entry). -/
local instance : Subsingleton S_.Idx := ⟨fun _ _ => funext fun d => d.elim0⟩

/-- The bit pattern 0x7F800000 (sign 0, exponent all ones, fraction 0) is +∞. -/
private theorem inf_bits : Ideal.ofBits .f32 0x7F800000#32 = (⊤ : EReal) := by
  simp [Ideal.ofBits, Ideal.ieee]

/-- An extended real whose absolute value max v (-v) is strictly below +∞ is a real: at v = -∞ and at v = +∞
    the absolute value is +∞ itself. -/
private theorem real_of_abs_lt (v : EReal)
    (h : FloatOps.cmpf (F := Ideal) (φ := .f32) .olt (FloatOps.hostAbsf (F := Ideal) (φ := .f32) v)
      (Ideal.ofBits .f32 0x7F800000#32) = 1#1) :
    ∃ r : ℝ, v = (r : EReal) := by
  rw [inf_bits] at h
  -- the comparison is the one-bit word of the decided strict inequality
  change BitVec.ofBool (decide (max v (-v) < (⊤ : EReal))) = 1#1 at h
  induction v using EReal.rec with
  | bot => simp at h
  | coe r => exact ⟨r, rfl⟩
  | top => simp at h

/-- From the precondition, x and w are real-valued. -/
theorem real_of_pre (x : FVec Ideal Cert.Pre_finite_inputs.S8x128x512 .f32) (w : FVec Ideal Cert.Pre_finite_inputs.S512x512 .f32) (b : FVec Ideal Cert.Pre_finite_inputs.S512 .f32)
    (h : Cert.Pre_finite_inputs.fn (F := Ideal) x w b = (fun _ => 1#1)) :
    (∀ i, ∃ r : ℝ, x i = (r : EReal)) ∧ (∀ i, ∃ r : ℝ, w i = (r : EReal)) := by
  -- the predicate's one value
  have h0 := congrFun h ValueIdx.ix0
  dsimp only [fn] at h0
  -- (test on x ∧ test on w) ∧ test on b: the last is split off and dropped
  obtain ⟨h8, _⟩ := IntOp.andi_eq_one.1 h0
  obtain ⟨h3, h7⟩ := IntOp.andi_eq_one.1 h8
  -- a conjunction over all entries that holds, holds at every entry; there the entry's test is |a| < +∞
  exact ⟨fun i => real_of_abs_lt (x i) (Host.reduce_andi_all _ _ _ _ ix0 h3 i),
         fun i => real_of_abs_lt (w i) (Host.reduce_andi_all _ _ _ _ ix0 h7 i)⟩

end Cert.FiniteInputs

end
-- ==== Proof.lean ====
/-
  The certificate: a kernel that computes Linear(x_i + x_j) for every pair of rows (i, j) of each batch entry as
  proj_i + proj_j + b, with proj = x · wᵀ computed once, against the reference that forms the pair sums first and
  contracts each against w.

  The three frames. The kernel program (read at the word level and at the ideal instance alike) is two host
  operations and two pipelined regions; its run (KI/Run.lean, K/Run.lean) ends with every unscoped buffer at
  contents that are a fold from the launch memory, and no item of that fold writes an argument. The reference has no
  region: its frame is its run with the result dropped.

  The value claim. At the ideal instance the kernel's result array is kernelFn x w b (KI/ValueRun.lean: each
  region's output array read back as a whole-array function of its inputs), the reference's is refFn x w b
  (RefSide.lean), and the two functions agree where x and w are real-valued (Spec.lean: the contraction is linear
  over the reals) — which is what the precondition, every input finite, says (Finite.lean). No operation
  of the kernel is rewritten in its idealization: the idealized kernel is the printed kernel's own text, read over
  the extended reals.
-/
import proofs.«180656_j86199993631321_1_alg».proof.Defs
import proofs.«180656_j86199993631321_1_alg».proof.Proof.Gen.Kernel
import proofs.«180656_j86199993631321_1_alg».proof.Proof.Gen.KernelIdeal
import proofs.«180656_j86199993631321_1_alg».proof.Proof.Gen.ReferenceIdeal
import proofs.«180656_j86199993631321_1_alg».proof.Proof.Gen.Pre_finite_inputs
import proofs.«180656_j86199993631321_1_alg».proof.Proof.Gen.ReferenceIdeal.Run
import proofs.«180656_j86199993631321_1_alg».proof.Proof.Gen.ReferenceIdeal.Read
import proofs.«180656_j86199993631321_1_alg».proof.Proof.K.Run
import proofs.«180656_j86199993631321_1_alg».proof.Proof.KI.Run
import proofs.«180656_j86199993631321_1_alg».proof.Proof.KI.ValueRun
import proofs.«180656_j86199993631321_1_alg».proof.Proof.RefSide
import proofs.«180656_j86199993631321_1_alg».proof.Proof.Finite
import proofs.«180656_j86199993631321_1_alg».proof.Proof.Spec
import Idealize.ShloMosaic.Adequacy
import Idealize.ShloMosaic.Init

noncomputable section

namespace Cert.Proof

open Idealize.ShloMosaic Idealize.ShloMosaic.TcCoe Idealize.SL.Sem

/-- The word-level kernel program runs to the end, and no item of it writes an argument. -/
theorem frame_k : Cert.frame_Kernel := fun m ρ _ =>
  (θ_run Cert.Kernel.defs _ _).mono (fun r h c =>
    ⟨(h c _ (Cert.Kernel.Hand.mem_uc Cert.Kernel.main_arg0 (by decide))).trans
        (Cert.Kernel.Hand.bd3_arg m c Cert.Kernel.main_arg0 (by decide) (by decide) (by decide)),
      (h c _ (Cert.Kernel.Hand.mem_uc Cert.Kernel.main_arg1 (by decide))).trans
        (Cert.Kernel.Hand.bd3_arg m c Cert.Kernel.main_arg1 (by decide) (by decide) (by decide)),
      (h c _ (Cert.Kernel.Hand.mem_uc Cert.Kernel.main_arg2 (by decide))).trans
        (Cert.Kernel.Hand.bd3_arg m c Cert.Kernel.main_arg2 (by decide) (by decide) (by decide))⟩)
    (Cert.Kernel.Hand.run_main (F := Bits) m ρ)

/-- The same program read at the ideal instance. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans
        (Cert.KernelIdeal.Hand.bd3_arg m c Cert.KernelIdeal.main_arg0 (by decide) (by decide) (by decide)),
      (h c _ (Cert.KernelIdeal.Hand.mem_uc Cert.KernelIdeal.main_arg1 (by decide))).trans
        (Cert.KernelIdeal.Hand.bd3_arg m c Cert.KernelIdeal.main_arg1 (by decide) (by decide) (by decide)),
      (h c _ (Cert.KernelIdeal.Hand.mem_uc Cert.KernelIdeal.main_arg2 (by decide))).trans
        (Cert.KernelIdeal.Hand.bd3_arg m c Cert.KernelIdeal.main_arg2 (by decide) (by decide) (by decide))⟩)
    (Cert.KernelIdeal.Hand.run_main (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation is rewritten between the kernel and its idealization, so there is nothing to preserve. -/
theorem preserves : Cert.preserves_Kernel_KernelIdeal := trivial

/-- Both programs end, from memories agreeing on the arguments, with the result array at kernelFn x w b: the
    kernel's by reading its two regions' outputs back, the reference's because refFn = kernelFn on real-valued
    x and w, which the precondition gives. -/
theorem algebraic : Cert.algebraic_KernelIdeal_ReferenceIdeal := by
  intro m ρ m' ρ' hpre hagree
  refine ⟨fun c => Cert.Spec.kernelFn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Hand.mem_uc Cert.KernelIdeal.main_v3 (by decide))).trans (Cert.KernelIdeal.Hand.result_eq m c),
        (h c _ (Cert.KernelIdeal.Hand.mem_uc Cert.KernelIdeal.main_arg0 (by decide))).trans
          (Cert.KernelIdeal.Hand.bd3_arg m c Cert.KernelIdeal.main_arg0 (by decide) (by decide) (by decide)),
        (h c _ (Cert.KernelIdeal.Hand.mem_uc Cert.KernelIdeal.main_arg1 (by decide))).trans
          (Cert.KernelIdeal.Hand.bd3_arg m c Cert.KernelIdeal.main_arg1 (by decide) (by decide) (by decide)),
        (h c _ (Cert.KernelIdeal.Hand.mem_uc Cert.KernelIdeal.main_arg2 (by decide))).trans
          (Cert.KernelIdeal.Hand.bd3_arg m c Cert.KernelIdeal.main_arg2 (by decide) (by decide) (by decide))⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    have hreal := Cert.FiniteInputs.real_of_pre _ _ _ (hpre c)
    rw [Cert.ReferenceIdeal.Read.val_main_v8_eq, Cert.ReferenceIdeal.RefValue.ref_eq, (hagree c).1, (hagree c).2.1, (hagree c).2.2]
    exact Cert.Spec.refFn_eq_kernelFn _ _ _ hreal.1 hreal.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
